-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048 : Shape := ⟨2, ![8, 2048]⟩
abbrev S4000x4000 : Shape := ⟨2, ![4000, 4000]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S4000x4000 : S_.BroadcastsInDim S4000x4000 (![] : Fin 0 → Fin S4000x4000.rank)
  reducesTo_S4000x4000_S_d0_1 : S4000x4000.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg1 : IVec S8x2048 32) (main_v13 : IVec S_ 1) (main_v15 : IVec S8x2048 1) (main_c_5 : IVec S_ 1) : IVec S_ 1 :=
  let main_v16 : IVec S_ 1 := (fun x v => Host.reduce IntOp.andi x v reducesTo_S8x2048_S_d0_1 h_S_) main_v15 main_c_5
  let main_v17 : IVec S_ 1 := andi main_v13 main_v16
  let main_c_6 : IVec S_ 32 := constantI S_ 32 4000#32
  let main_v18 : IVec S8x2048 32 := broadcastInDim S8x2048 ![] bcast_S_S8x2048 main_c_6
  let main_v19 : IVec S8x2048 1 := cmpi .slt main_arg1 main_v18
  let main_c_7 : IVec S_ 1 := constantI S_ 1 1#1
  let main_v20 : IVec S_ 1 := (fun x v => Host.reduce IntOp.andi x v reducesTo_S8x2048_S_d0_1 h_S_) main_v19 main_c_7
  let main_v21 : IVec S_ 1 := andi main_v17 main_v20
  main_v21

def fn {F : FTy → Type} [FloatOps F] (main_arg0 : FVec F S8x2048x128 .f32) (main_arg1 : IVec S8x2048 32) (main_arg2 : FVec F S4000x4000 .f32) (main_arg3 : FVec F S4000x4000 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S4000x4000 .f32 := Host.absf main_arg2
  let main_cst_0 : FVec F S_ .f32 := constant S_ .f32 0x7F800000#32
  let main_v5 : FVec F S4000x4000 .f32 := broadcastInDim S4000x4000 ![] bcast_S_S4000x4000 main_cst_0
  let main_v6 : IVec S4000x4000 1 := cmpf .olt main_v4 main_v5
  let main_c_1 : IVec S_ 1 := constantI S_ 1 1#1
  let main_v7 : IVec S_ 1 := (fun x v => Host.reduce IntOp.andi x v reducesTo_S4000x4000_S_d0_1 h_S_) main_v6 main_c_1
  let main_v8 : IVec S_ 1 := andi main_v3 main_v7
  let main_v9 : FVec F S4000x4000 .f32 := Host.absf main_arg3
  let main_cst_2 : FVec F S_ .f32 := constant S_ .f32 0x7F800000#32
  let main_v10 : FVec F S4000x4000 .f32 := broadcastInDim S4000x4000 ![] bcast_S_S4000x4000 main_cst_2
  let main_v11 : IVec S4000x4000 1 := cmpf .olt main_v9 main_v10
  let main_c_3 : IVec S_ 1 := constantI S_ 1 1#1
  let main_v12 : IVec S_ 1 := (fun x v => Host.reduce IntOp.andi x v reducesTo_S4000x4000_S_d0_1 h_S_) main_v11 main_c_3
  let main_v13 : IVec S_ 1 := andi main_v8 main_v12
  let main_c_4 : IVec S_ 32 := constantI S_ 32 0#32
  let main_v14 : IVec S8x2048 32 := broadcastInDim S8x2048 ![] bcast_S_S8x2048 main_c_4
  let main_v15 : IVec S8x2048 1 := cmpi .sge main_arg1 main_v14
  let main_c_5 : IVec S_ 1 := constantI S_ 1 1#1
  fn_part1 (F := F) main_arg1 main_v13 main_v15 main_c_5
-- ==== Kernel.lean ====
abbrev S8x2048x128 : Shape := ⟨3, ![8, 2048, 128]⟩
abbrev S8x2048 : Shape := ⟨2, ![8, 2048]⟩
abbrev S4000x4000 : Shape := ⟨2, ![4000, 4000]⟩
abbrev S_ : Shape := ⟨0, ![]⟩
abbrev S8x2048x1 : Shape := ⟨3, ![8, 2048, 1]⟩
abbrev S8x2048x4000 : Shape := ⟨3, ![8, 2048, 4000]⟩
abbrev S1 : Shape := ⟨1, ![1]⟩
abbrev S1x1x1 : Shape := ⟨3, ![1, 1, 1]⟩
abbrev S8x2048x2048 : Shape := ⟨3, ![8, 2048, 2048]⟩
abbrev S1x1024x2048 : Shape := ⟨3, ![1, 1024, 2048]⟩
abbrev S1x2048x128 : Shape := ⟨3, ![1, 2048, 128]⟩
abbrev S1x1024x128 : Shape := ⟨3, ![1, 1024, 128]⟩
abbrev S1024x2048 : Shape := ⟨2, ![1024, 2048]⟩
abbrev S1024 : Shape := ⟨1, ![1024]⟩
abbrev S1024x1 : Shape := ⟨2, ![1024, 1]⟩
abbrev S2048x128 : Shape := ⟨2, ![2048, 128]⟩
abbrev S1024x128 : Shape := ⟨2, ![1024, 128]⟩

abbrev nBuf : Space → Nat
  | .hbm => 70
  | .vmem => 8
  | .smem => 0
  | _ => 0

abbrev bufTy : (tb : Table) → Fin (tcTables nBuf tb) → BufTy
  | .hbm, ⟨0, _⟩ => ⟨S8x2048x128, .f32⟩
  | .hbm, ⟨1, _⟩ => ⟨S8x2048, .i32⟩
  | .hbm, ⟨2, _⟩ => ⟨S4000x4000, .f32⟩
  | .hbm, ⟨3, _⟩ => ⟨S4000x4000, .f32⟩
  | .hbm, ⟨4, _⟩ => ⟨S_, .i32⟩
  | .hbm, ⟨5, _⟩ => ⟨S8x2048, .i32⟩
  | .hbm, ⟨6, _⟩ => ⟨S8x2048, .i1⟩
  | .hbm, ⟨7, _⟩ => ⟨S_, .i32⟩
  | .hbm, ⟨8, _⟩ => ⟨S8x2048, .i32⟩
  | .hbm, ⟨9, _⟩ => ⟨S8x2048, .i32⟩
  | .hbm, ⟨10, _⟩ => ⟨S8x2048, .i32⟩
  | .hbm, ⟨11, _⟩ => ⟨S8x2048x1, .i32⟩
  | .hbm, ⟨12, _⟩ => ⟨S8x2048x4000, .f32⟩
  | .hbm, ⟨13, _⟩ => ⟨S_, .i32⟩
  | .hbm, ⟨14, _⟩ => ⟨S8x2048, .i32⟩
  | .hbm, ⟨15, _⟩ => ⟨S8x2048, .i1⟩
  | .hbm, ⟨16, _⟩ => ⟨S_, .i32⟩
  | .hbm, ⟨17, _⟩ => ⟨S8x2048, .i32⟩
  | .hbm, ⟨18, _⟩ => ⟨S8x2048, .i32⟩
  | .hbm, ⟨19, _⟩ => ⟨S8x2048, .i32⟩
  | .hbm, ⟨20, _⟩ => ⟨S8x2048x1, .i32⟩
  | .hbm, ⟨21, _⟩ => ⟨S8x2048x4000, .f32⟩
  | .hbm, ⟨22, _⟩ => ⟨S_, .i32⟩
  | .hbm, ⟨23, _⟩ => ⟨S8x2048, .i32⟩
  | .hbm, ⟨24, _⟩ => ⟨S8x2048, .i1⟩
  | .hbm, ⟨25, _⟩ => ⟨S_, .i32⟩
  | .hbm, ⟨26, _⟩ => ⟨S8x2048, .i32⟩
  | .hbm, ⟨27, _⟩ => ⟨S8x2048, .i32⟩
  | .hbm, ⟨28, _⟩ => ⟨S8x2048, .i32⟩
  | .hbm, ⟨29, _⟩ => ⟨S8x2048x1, .i32⟩
  | .hbm, ⟨30, _⟩ => ⟨S1, .i32⟩
  | .hbm, ⟨31, _⟩ => ⟨S_, .i32⟩
  | .hbm, ⟨32, _⟩ => ⟨S8x2048x1, .i32⟩
  | .hbm, ⟨33, _⟩ => ⟨S8x2048x1, .i1⟩
  | .hbm, ⟨34, _⟩ => ⟨S1x1x1, .i32⟩
  | .hbm, ⟨35, _⟩ => ⟨S8x2048x1, .i32⟩
  | .hbm, ⟨36, _⟩ => ⟨S8x2048x1, .i1⟩
  | .hbm, ⟨37, _⟩ => ⟨S8x2048x1, .i1⟩
  | .hbm, ⟨38, _⟩ => ⟨S_, .i1⟩
  | .hbm, ⟨39, _⟩ => ⟨S8x2048, .i1⟩
  | .hbm, ⟨40, _⟩ => ⟨S8x2048x2048, .f32⟩
  | .hbm, ⟨41, _⟩ => ⟨S8x2048x2048, .i1⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S_, .i32⟩
  | .hbm, ⟨46, _⟩ => ⟨S8x2048, .i32⟩
  | .hbm, ⟨47, _⟩ => ⟨S8x2048, .i1⟩
  | .hbm, ⟨48, _⟩ => ⟨S_, .i32⟩
  | .hbm, ⟨49, _⟩ => ⟨S8x2048, .i32⟩
  | .hbm, ⟨50, _⟩ => ⟨S8x2048, .i32⟩
  | .hbm, ⟨51, _⟩ => ⟨S8x2048, .i32⟩
  | .hbm, ⟨52, _⟩ => ⟨S8x2048x1, .i32⟩
  | .hbm, ⟨53, _⟩ => ⟨S1, .i32⟩
  | .hbm, ⟨54, _⟩ => ⟨S_, .i32⟩
  | .hbm, ⟨55, _⟩ => ⟨S8x2048x1, .i32⟩
  | .hbm, ⟨56, _⟩ => ⟨S8x2048x1, .i1⟩
  | .hbm, ⟨57, _⟩ => ⟨S1x1x1, .i32⟩
  | .hbm, ⟨58, _⟩ => ⟨S8x2048x1, .i32⟩
  | .hbm, ⟨59, _⟩ => ⟨S8x2048x1, .i1⟩
  | .hbm, ⟨60, _⟩ => ⟨S8x2048x1, .i1⟩
  | .hbm, ⟨61, _⟩ => ⟨S_, .i1⟩
  | .hbm, ⟨62, _⟩ => ⟨S8x2048, .i1⟩
  | .hbm, ⟨63, _⟩ => ⟨S8x2048x2048, .f32⟩
  | .hbm, ⟨64, _⟩ => ⟨S8x2048x2048, .i1⟩
  | .hbm, ⟨65, _⟩ => ⟨S_, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S8x2048x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v14 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  h_S_ : 0 < S_.numel
  bcast_S8x2048_S8x2048x2048_0_2 : S8x2048.BroadcastsInDim S8x2048x2048 (![0, 2] : Fin 2 → Fin S8x2048x2048.rank)
  bcast_S_S8x2048x2048 : S_.BroadcastsInDim S8x2048x2048 (![] : Fin 0 → Fin S8x2048x2048.rank)
  iota_S1024x2048_d0_w32 : S1024x2048.Iotas .tc 32 [0]
  iota_S1024x2048_d1_w32 : S1024x2048.Iotas .tc 32 [1]
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  gather_S4000x4000_S8x2048x1_S8x2048x4000_2_0_n_n_0_2_14000_wf : GatherDims.WF S4000x4000 S8x2048x1 S8x2048x4000 [2] [0] [] [0] [] 2 ![1, 4000]
  gather_S8x2048x4000_S8x2048x1_S8x2048x2048_1_2_0_0_2_2_120481_wf : GatherDims.WF S8x2048x4000 S8x2048x1 S8x2048x2048 [1] [2] [0] [2] [0] 2 ![1, 2048, 1]
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x2048x2048.size a
  hwx0_1 : ∀ i : grid0.Coords, EltTy.bits .f32 = 32 ∨ (Rect.block (s := S8x2048x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S8x2048x128.size a
  hwx0_3 : ∀ i : grid0.Coords, EltTy.bits .f32 = 32 ∨ (Rect.block (s := S8x2048x128) S1x1024x128.size (cc0_transform_3 i) (hinb0_3 i)).WholeWords (EltTy.packing .f32)

variable [Facts₀]

def gather_S4000x4000_S8x2048x1_S8x2048x4000_2_0_n_n_0_2_14000 : GatherDims S4000x4000 S8x2048x1 S8x2048x4000 where
  offsetDims := [2]
  collapsedSliceDims := [0]
  operandBatchingDims := []
  startIndicesBatchingDims := []
  startIndexMap := [0]
  indexVectorDim := 2
  sliceSizes := ![1, 4000]
  wf := gather_S4000x4000_S8x2048x1_S8x2048x4000_2_0_n_n_0_2_14000_wf
def gather_S8x2048x4000_S8x2048x1_S8x2048x2048_1_2_0_0_2_2_120481 : GatherDims S8x2048x4000 S8x2048x1 S8x2048x2048 where
  offsetDims := [1]
  collapsedSliceDims := [2]
  operandBatchingDims := [0]
  startIndicesBatchingDims := [0]
  startIndexMap := [2]
  indexVectorDim := 2
  sliceSizes := ![1, 2048, 1]
  wf := gather_S8x2048x4000_S8x2048x1_S8x2048x2048_1_2_0_0_2_2_120481_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v14) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048 : Shape := ⟨2, ![8, 2048]⟩
abbrev S4000x4000 : Shape := ⟨2, ![4000, 4000]⟩
abbrev S8x2048x1 : Shape := ⟨3, ![8, 2048, 1]⟩
abbrev S8x1x2048 : Shape := ⟨3, ![8, 1, 2048]⟩
abbrev S_ : Shape := ⟨0, ![]⟩
abbrev S8x2048x2048 : Shape := ⟨3, ![8, 2048, 2048]⟩
abbrev S8x2048x2048x1 : Shape := ⟨4, ![8, 2048, 2048, 1]⟩
abbrev S8x2048x2048x2 : Shape := ⟨4, ![8, 2048, 2048, 2]⟩
abbrev S2048x2048 : Shape := ⟨2, ![2048, 2048]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048, .i32⟩
  | .hbm, ⟨2, _⟩ => ⟨S4000x4000, .f32⟩
  | .hbm, ⟨3, _⟩ => ⟨S4000x4000, .f32⟩
  | .hbm, ⟨4, _⟩ => ⟨S8x2048x1, .i32⟩
  | .hbm, ⟨5, _⟩ => ⟨S8x1x2048, .i32⟩
  | .hbm, ⟨6, _⟩ => ⟨S_, .i32⟩
  | .hbm, ⟨7, _⟩ => ⟨S8x2048x1, .i32⟩
  | .hbm, ⟨8, _⟩ => ⟨S8x2048x1, .i1⟩
  | .hbm, ⟨9, _⟩ => ⟨S_, .i32⟩
  | .hbm, ⟨10, _⟩ => ⟨S8x2048x1, .i32⟩
  | .hbm, ⟨11, _⟩ => ⟨S8x2048x1, .i32⟩
  | .hbm, ⟨12, _⟩ => ⟨S8x2048x1, .i32⟩
  | .hbm, ⟨13, _⟩ => ⟨S_, .i32⟩
  | .hbm, ⟨14, _⟩ => ⟨S8x1x2048, .i32⟩
  | .hbm, ⟨15, _⟩ => ⟨S8x1x2048, .i1⟩
  | .hbm, ⟨16, _⟩ => ⟨S_, .i32⟩
  | .hbm, ⟨17, _⟩ => ⟨S8x1x2048, .i32⟩
  | .hbm, ⟨18, _⟩ => ⟨S8x1x2048, .i32⟩
  | .hbm, ⟨19, _⟩ => ⟨S8x1x2048, .i32⟩
  | .hbm, ⟨20, _⟩ => ⟨S8x2048x2048, .i32⟩
  | .hbm, ⟨21, _⟩ => ⟨S8x2048x2048, .i32⟩
  | .hbm, ⟨22, _⟩ => ⟨S8x2048x2048x1, .i32⟩
  | .hbm, ⟨23, _⟩ => ⟨S8x2048x2048x1, .i32⟩
  | .hbm, ⟨24, _⟩ => ⟨S8x2048x2048x2, .i32⟩
  | .hbm, ⟨25, _⟩ => ⟨S8x2048x2048, .f32⟩
  | .hbm, ⟨26, _⟩ => ⟨S8x2048x1, .i32⟩
  | .hbm, ⟨27, _⟩ => ⟨S8x1x2048, .i32⟩
  | .hbm, ⟨28, _⟩ => ⟨S_, .i32⟩
  | .hbm, ⟨29, _⟩ => ⟨S8x2048x1, .i32⟩
  | .hbm, ⟨30, _⟩ => ⟨S8x2048x1, .i1⟩
  | .hbm, ⟨31, _⟩ => ⟨S_, .i32⟩
  | .hbm, ⟨32, _⟩ => ⟨S8x2048x1, .i32⟩
  | .hbm, ⟨33, _⟩ => ⟨S8x2048x1, .i32⟩
  | .hbm, ⟨34, _⟩ => ⟨S8x2048x1, .i32⟩
  | .hbm, ⟨35, _⟩ => ⟨S_, .i32⟩
  | .hbm, ⟨36, _⟩ => ⟨S8x1x2048, .i32⟩
  | .hbm, ⟨37, _⟩ => ⟨S8x1x2048, .i1⟩
  | .hbm, ⟨38, _⟩ => ⟨S_, .i32⟩
  | .hbm, ⟨39, _⟩ => ⟨S8x1x2048, .i32⟩
  | .hbm, ⟨40, _⟩ => ⟨S8x1x2048, .i32⟩
  | .hbm, ⟨41, _⟩ => ⟨S8x1x2048, .i32⟩
  | .hbm, ⟨42, _⟩ => ⟨S8x2048x2048, .i32⟩
  | .hbm, ⟨43, _⟩ => ⟨S8x2048x2048, .i32⟩
  | .hbm, ⟨44, _⟩ => ⟨S8x2048x2048x1, .i32⟩
  | .hbm, ⟨45, _⟩ => ⟨S8x2048x2048x1, .i32⟩
  | .hbm, ⟨46, _⟩ => ⟨S8x2048x2048x2, .i32⟩
  | .hbm, ⟨47, _⟩ => ⟨S8x2048x2048, .f32⟩
  | .hbm, ⟨48, _⟩ => ⟨S8x2048x2048, .f32⟩
  | .hbm, ⟨49, _⟩ => ⟨S2048x2048, .i32⟩
  | .hbm, ⟨50, _⟩ => ⟨S2048x2048, .i32⟩
  | .hbm, ⟨51, _⟩ => ⟨S_, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S_, .f32⟩
  | .hbm, ⟨56, _⟩ => ⟨S8x2048x2048, .i1⟩
  | .hbm, ⟨57, _⟩ => ⟨S8x2048x2048, .f32⟩
  | .hbm, ⟨58, _⟩ => ⟨S8x2048x2048, .f32⟩
  | .hbm, ⟨59, _⟩ => ⟨S_, .f32⟩
  | .hbm, ⟨60, _⟩ => ⟨S8x2048x2048, .i1⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048, .f32⟩
  | .hbm, ⟨65, _⟩ => ⟨S_, .f32⟩
  | .hbm, ⟨66, _⟩ => ⟨S8x2048, .f32⟩
  | .hbm, ⟨67, _⟩ => ⟨S8x2048, .f32⟩
  | .hbm, ⟨68, _⟩ => ⟨S8x2048x1, .f32⟩
  | .hbm, ⟨69, _⟩ => ⟨S8x2048x2048, .f32⟩
  | .hbm, ⟨70, _⟩ => ⟨S8x2048x2048, .f32⟩
  | .hbm, ⟨71, _⟩ => ⟨S8x2048x2048, .f32⟩
  | .hbm, ⟨72, _⟩ => ⟨S_, .f32⟩
  | .hbm, ⟨73, _⟩ => ⟨S8x2048, .f32⟩
  | .hbm, ⟨74, _⟩ => ⟨S8x2048x1, .f32⟩
  | .hbm, ⟨75, _⟩ => ⟨S8x2048x2048, .f32⟩
  | .hbm, ⟨76, _⟩ => ⟨S8x2048x2048, .f32⟩
  | .hbm, ⟨77, _⟩ => ⟨S8x2048x2048, .f32⟩
  | .hbm, ⟨78, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst : Ref sig .tc := ⟨.hbm, 55, rfl⟩
abbrev main_call0_v0 : Ref sig .tc := ⟨.hbm, 56, rfl⟩
abbrev main_call0_v1 : Ref sig .tc := ⟨.hbm, 57, rfl⟩
abbrev main_v42 : Ref sig .tc := ⟨.hbm, 58, rfl⟩
abbrev main_cst_8 : Ref sig .tc := ⟨.hbm, 59, rfl⟩
abbrev main_call1_v0 : Ref sig .tc := ⟨.hbm, 60, rfl⟩
abbrev main_call1_v1 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S_S8x2048x1 : S_.BroadcastsInDim S8x2048x1 (![] : Fin 0 → Fin S8x2048x1.rank)
  bcast_S_S8x1x2048 : S_.BroadcastsInDim S8x1x2048 (![] : Fin 0 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S8x2048x2048_S8x2048x2048x1_0_1_2 : S8x2048x2048.BroadcastsInDim S8x2048x2048x1 (![0, 1, 2] : Fin 3 → Fin S8x2048x2048x1.rank)
  concatenates_S8x2048x2048x1_S8x2048x2048x1_S8x2048x2048x2_d3 : Shape.Concatenates [S8x2048x2048x1, S8x2048x2048x1] S8x2048x2048x2 3
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  gather_S4000x4000_S8x2048x2048x2_S8x2048x2048_n_01_n_n_01_3_11_wf : GatherDims.WF S4000x4000 S8x2048x2048x2 S8x2048x2048 [] [0, 1] [] [0, 1] [] 3 ![1, 1]
  dot_S8x2048x2048_S8x2048x128_S8x2048x128_2_1_1_2_0_0_wf : DotDims.WF S8x2048x2048 S8x2048x128 S8x2048x128 [2] [1] [1] [2] [0] [0]

variable [Facts₀]

def gather_S4000x4000_S8x2048x2048x2_S8x2048x2048_n_01_n_n_01_3_11 : GatherDims S4000x4000 S8x2048x2048x2 S8x2048x2048 where
  offsetDims := []
  collapsedSliceDims := [0, 1]
  operandBatchingDims := []
  startIndicesBatchingDims := []
  startIndexMap := [0, 1]
  indexVectorDim := 3
  sliceSizes := ![1, 1]
  wf := gather_S4000x4000_S8x2048x2048x2_S8x2048x2048_n_01_n_n_01_3_11_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.KernelHost.lean ====
/-
  What the kernel program's host operations hand to its one region.

  Before the region the program wraps the ids, gathers from each table the rows the ids select (an 8 × 2048 × 4000
  array), then from each such row the columns the same ids select (8 × 2048 × 2048), keeping an entry only where the
  column's id lies in the table and putting a not-a-number elsewhere; the second array's absolute value is taken. The
  two resulting arrays and the feature array are the region's three inputs. Here each is named as a pure function of
  the argument arrays, for any float instance, and shown to be what the region finds.
-/
import proofs.«412008_j77910706749811_3_alg».proof.Proof.FrameKernelIdeal
import Idealize.ShloMosaic.Lib.StableHlo.Run
import Idealize.ShloMosaic.Lib.Pipeline.Value

noncomputable section

namespace Cert.KernelIdeal.HostVal

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-- The ids with a negative one counted from the table's end. -/
def wrapped (ids : IVec S8x2048 32) : IVec S8x2048 32 :=
  select (cmpi .slt ids (broadcastInDim S8x2048 ![] bcast_S_S8x2048 (constantI S_ 32 0#32)))
    (addi ids (broadcastInDim S8x2048 ![] bcast_S_S8x2048 (constantI S_ 32 4000#32))) ids

/-- The wrapped ids as a column of start indices. -/
def column (ids : IVec S8x2048 32) : IVec S8x2048x1 32 :=
  broadcastInDim S8x2048x1 ![0, 1] bcast_S8x2048_S8x2048x1_0_1 (wrapped ids)

/-- The table rows the ids select. -/
def rows (tab : FVec F S4000x4000 .f32) (ids : IVec S8x2048 32) : FVec F S8x2048x4000 .f32 :=
  Host.gather gather_S4000x4000_S8x2048x1_S8x2048x4000_2_0_n_n_0_2_14000 tab (column ids)

/-- Whether each (wrapped) id lies in the table: 0 ≤ id ≤ 3999. -/
def inTable (ids : IVec S8x2048 32) : IVec S8x2048 1 :=
  Host.reduce IntOp.andi
    (andi (cmpi .sge (column ids) (broadcastInDim S8x2048x1 ![] bcast_S_S8x2048x1 (constantI S_ 32 0#32)))
      (cmpi .sle (column ids) (broadcastInDim S8x2048x1 ![0, 1, 2] bcast_S1x1x1_S8x2048x1_0_1_2
        (broadcastInDim S1x1x1 ![2] bcast_S1_S1x1x1_2 (constantI S1 32 3999#32)))))
    (constantI S_ 1 1#1) reducesTo_S8x2048x1_S8x2048_d2 h_S_

/-- From each selected row, the columns the ids select; a not-a-number where the column's id is outside the table. -/
def take (r : FVec F S8x2048x4000 .f32) (ids : IVec S8x2048 32) : FVec F S8x2048x2048 .f32 :=
  select (broadcastInDim S8x2048x2048 ![0, 2] bcast_S8x2048_S8x2048x2048_0_2 (inTable ids))
    (Host.gather gather_S8x2048x4000_S8x2048x1_S8x2048x2048_1_2_0_0_2_2_120481 r (column ids))
    (broadcastInDim S8x2048x2048 ![] bcast_S_S8x2048x2048 (constant S_ .f32 0x7FC00000#32))

/-- The first region input: the edge values. -/
def valuesArr (tab : FVec F S4000x4000 .f32) (ids : IVec S8x2048 32) : FVec F S8x2048x2048 .f32 :=
  take (rows tab ids) ids

/-- The second region input: the edge scores. -/
def scoresArr (tab : FVec F S4000x4000 .f32) (ids : IVec S8x2048 32) : FVec F S8x2048x2048 .f32 :=
  Host.absf (take (rows tab ids) ids)

/-! ## The four stretches of host operations, one at a time -/

section Stretches

variable (W : Valuation τ sig (Elt F))

/-- The first stretch leaves the ids as they were, -/
theorem ids_after0 : StableHlo.after (hostOps0 (F := F)) W (Proc.devRef .tc main_arg1) = W (Proc.devRef .tc main_arg1) := by
  after_results

/-- gathers the first table's rows, -/
theorem rows2_after0 : (StableHlo.after (hostOps0 (F := F)) W (Proc.devRef .tc main_v6) : S8x2048x4000.Idx → Elt F .f32)
    = rows (W (Proc.devRef .tc main_arg2)) (W (Proc.devRef .tc main_arg1)) := by
  after_results
  rfl

/-- and the second table's. -/
theorem rows3_after0 : (StableHlo.after (hostOps0 (F := F)) W (Proc.devRef .tc main_v13) : S8x2048x4000.Idx → Elt F .f32)
    = rows (W (Proc.devRef .tc main_arg3)) (W (Proc.devRef .tc main_arg1)) := by
  after_results
  rfl

/-- The second stretch leaves the ids and the second row buffer alone. -/
theorem ids_after1 : StableHlo.after (hostOps0_1 (F := F)) W (Proc.devRef .tc main_arg1) = W (Proc.devRef .tc main_arg1) := by
  after_results
theorem rows3_after1 : StableHlo.after (hostOps0_1 (F := F)) W (Proc.devRef .tc main_v13) = W (Proc.devRef .tc main_v13) := by
  after_results

/-- The third stretch keeps the first result. -/
theorem values_after2 : StableHlo.after (hostOps0_2 (F := F)) W (Proc.devRef .tc main_v14) = W (Proc.devRef .tc main_v14) := by
  after_results

/-- The last stretch takes the absolute value of the second result, and keeps the first. -/
theorem abs_after3 : (StableHlo.after (hostOps0_3 (F := F)) W (Proc.devRef .tc main_v16) : S8x2048x2048.Idx → Elt F .f32)
    = Host.absf (W (Proc.devRef .tc main_v15)) := by
  after_results
theorem values_after3 : StableHlo.after (hostOps0_3 (F := F)) W (Proc.devRef .tc main_v14) = W (Proc.devRef .tc main_v14) := by
  after_results

end Stretches

end Cert.KernelIdeal.HostVal

end
-- ==== Proof.KernelHostTake.lean ====
/-
  The two column selections among the kernel program's host operations: each is one function of the row buffer it
  reads and of the ids.
-/
import proofs.«412008_j77910706749811_3_alg».proof.Proof.KernelHost

noncomputable section

namespace Cert.KernelIdeal.HostVal

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (W : Valuation τ sig (Elt F))

set_option maxHeartbeats 4000000 in
/-- The second stretch selects columns of whatever rows it finds in the first row buffer. -/
theorem take_after1 : (StableHlo.after (hostOps0_1 (F := F)) W (Proc.devRef .tc main_v14) : S8x2048x2048.Idx → Elt F .f32)
    = take (W (Proc.devRef .tc main_v6)) (W (Proc.devRef .tc main_arg1)) := by
  after_results_simp
  simp only [TRef.ofBuf, TRef.toBuf, cast_eq]
  rfl

set_option maxHeartbeats 4000000 in
/-- The third stretch does the same from the second row buffer. -/
theorem take_after2 : (StableHlo.after (hostOps0_2 (F := F)) W (Proc.devRef .tc main_v15) : S8x2048x2048.Idx → Elt F .f32)
    = take (W (Proc.devRef .tc main_v13)) (W (Proc.devRef .tc main_arg1)) := by
  after_results_simp
  simp only [TRef.ofBuf, TRef.toBuf, cast_eq]
  rfl

end Cert.KernelIdeal.HostVal

end
-- ==== Proof.Spec.lean ====
/-
  What both programs compute, as one function of the four argument arrays, element by element over the extended reals.

  A batch `b` has 2048 nodes; node `i` carries an integer id, which selects row and column `pos b i` of two 4000 × 4000
  tables (a negative id counts from the end, and the result is clamped into the table, as a gather reads a start index).
  The edge (i, j) of batch `b` has the value `M[pos b i, pos b j]` and the score `|W[pos b i, pos b j]|`, both replaced by
  zero on the diagonal i = j. Each row of scores is turned into weights by a softmax along j (shifted by the row's
  maximum, which does not change the quotient's form here: both programs shift), the weights multiply the edge values,
  and the product matrix multiplies the batch's 2048 × 128 feature block:

      out[b, i, d] = Σ_j  value(b,i,j) · ( exp(score(b,i,j) − max_j' score(b,i,j')) / Σ_j' exp(score(b,i,j') − max …) ) · x[b, j, d].

  Nothing here depends on either program; both sides are proved equal to `out`.
-/
import Idealize.ShloMosaic.PureOps.Ideal
import Idealize.ShloMosaic.Lib.ValueIdx

noncomputable section

open scoped BigOperators

namespace Cert.GraphAttn

open Idealize.ShloMosaic Idealize.ShloMosaic.ValueIdx

/-- The ids, the tables, the features. -/
abbrev SIds : Shape := ⟨2, ![8, 2048]⟩
abbrev STab : Shape := ⟨2, ![4000, 4000]⟩
abbrev SFeat : Shape := ⟨3, ![8, 2048, 128]⟩

/-- A negative id counts from the end of a table of 4000 rows. -/
def wrap (v : BitVec 32) : BitVec 32 := Scalar.select (IntOp.cmpi .slt v 0#32) (IntOp.addi v 4000#32) v

/-- A start index read as a gather reads it: signed, and clamped into the 4000 rows. -/
def clamp (v : BitVec 32) : Fin 4000 := ⟨min v.toInt.toNat 3999, by omega⟩

/-- The table row (and column) that node `i` of batch `b` selects. -/
def pos (ids : IVec SIds 32) (b : Fin 8) (i : Fin 2048) : Fin 4000 := clamp (wrap (ids (ix2 b i)))

/-- The table entry of the edge (i, j) of batch `b`. -/
def edge (ids : IVec SIds 32) (tab : STab.Idx → EReal) (b : Fin 8) (i j : Fin 2048) : EReal :=
  tab (ix2 (pos ids b i) (pos ids b j))

/-- A value with the diagonal replaced by (the float) zero. -/
def offDiag (i j : Fin 2048) (v : EReal) : EReal := if i = j then Ideal.ofBits .f32 0x00000000#32 else v

/-- The edge's value: the first table's entry off the diagonal. -/
def value (ids : IVec SIds 32) (mt : STab.Idx → EReal) (b : Fin 8) (i j : Fin 2048) : EReal :=
  offDiag i j (edge ids mt b i j)

/-- The edge's score: the absolute value of the second table's entry off the diagonal. -/
def score (ids : IVec SIds 32) (wt : STab.Idx → EReal) (b : Fin 8) (i j : Fin 2048) : EReal :=
  offDiag i j (max (edge ids wt b i j) (-(edge ids wt b i j)))

/-- A row's largest score (the fold of `max` from −∞ over the row). -/
def rowMax (ids : IVec SIds 32) (wt : STab.Idx → EReal) (b : Fin 8) (i : Fin 2048) : EReal :=
  (Finset.univ : Finset (Fin 2048)).fold max (Ideal.ofBits .f32 0xFF800000#32) (fun j => score ids wt b i j)

/-- The shifted exponential of a score. -/
def expo (ids : IVec SIds 32) (wt : STab.Idx → EReal) (b : Fin 8) (i j : Fin 2048) : EReal :=
  Ideal.exp (score ids wt b i j - rowMax ids wt b i)

/-- A row's normaliser. -/
def denom (ids : IVec SIds 32) (wt : STab.Idx → EReal) (b : Fin 8) (i : Fin 2048) : EReal :=
  ∑ j : Fin 2048, expo ids wt b i j

/-- The attention weight of the edge. -/
def att (ids : IVec SIds 32) (wt : STab.Idx → EReal) (b : Fin 8) (i j : Fin 2048) : EReal :=
  Ideal.div (expo ids wt b i j) (denom ids wt b i)

/-- The weighted edge value. -/
def weighted (ids : IVec SIds 32) (mt wt : STab.Idx → EReal) (b : Fin 8) (i j : Fin 2048) : EReal :=
  value ids mt b i j * att ids wt b i j

/-- THE RESULT at (b, i, d). -/
def out (x : SFeat.Idx → EReal) (ids : IVec SIds 32) (mt wt : STab.Idx → EReal) (b : Fin 8) (i : Fin 2048) (d : Fin 128) : EReal :=
  ∑ j : Fin 2048, weighted ids mt wt b i j * x (ix3 b j d)

/-- The result as an array. -/
def outArr (x : SFeat.Idx → EReal) (ids : IVec SIds 32) (mt wt : STab.Idx → EReal) : SFeat.Idx → EReal :=
  fun y => out x ids mt wt (y 0) (y 1) (y 2)

/-! ## Ids in range -/

/-- Every id lies in [0, 4000): what the precondition says of the ids. -/
def InRange (ids : IVec SIds 32) : Prop :=
  ∀ (b : Fin 8) (i : Fin 2048), IntOp.cmpi .sge (ids (ix2 b i)) 0#32 = 1#1 ∧ IntOp.cmpi .slt (ids (ix2 b i)) 4000#32 = 1#1

/-- An id that is not negative is its own wrap. -/
theorem wrap_of_nonneg {v : BitVec 32} (h : IntOp.cmpi .sge v 0#32 = 1#1) : wrap v = v := by
  unfold wrap
  have h0 : IntOp.cmpi .slt v 0#32 = 0#1 := by
    simp only [IntOp.cmpi] at h ⊢
    have : (0#32).sle v = true := by
      by_contra hc; simp only [Bool.not_eq_true] at hc; rw [hc] at h; exact absurd h (by decide)
    have h2 : v.slt 0#32 = false := by
      rw [BitVec.slt, BitVec.sle] at *; simp only [decide_eq_true_eq, decide_eq_false_iff_not] at *; omega
    rw [h2]; rfl
  rw [h0]; exact select_zero _ _

end Cert.GraphAttn

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.KernelBody.lean ====
/-
  One row of the kernel's block, read at an index.

  At a grid point (b, q) the body holds rows q·1024 … q·1024 + 1023 of batch b: a 1024 × 2048 block of edge values, one
  of edge scores, and the batch's 2048 × 128 features. Row r of the block is node i = q·1024 + r. The body zeroes the
  diagonal entry (row i, column i) of both blocks, takes each row's maximum score, exponentiates the shifted scores,
  divides by the row's sum, multiplies by the values and multiplies the resulting 1024 × 2048 matrix by the features.
  So entry (r, d) of what it stores is the sum over the columns κ of
      value(i, κ) · exp(score(i, κ) − max) / Σ exp(score(i, ·) − max) · x(κ, d),
  a function of row r of the two blocks and column d of the features.
-/
import proofs.«412008_j77910706749811_3_alg».proof.Proof.Gen.KernelIdeal.Skeleton
import proofs.«412008_j77910706749811_3_alg».proof.Proof.Spec
import proofs.«412008_j77910706749811_3_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Cert.GraphAttn
open Idealize.ShloMosaic Idealize.ShloMosaic.ValueIdx

/-! ## A row's result from the row's values, scores and a feature column -/

/-- A row's scores with the diagonal zeroed. -/
def rowScore (i : Fin 2048) (wrow : Fin 2048 → EReal) (κ : Fin 2048) : EReal := offDiag i κ (wrow κ)

/-- The row's largest score. -/
def rowTop (i : Fin 2048) (wrow : Fin 2048 → EReal) : EReal :=
  (Finset.univ : Finset (Fin 2048)).fold max (Ideal.ofBits .f32 0xFF800000#32) (rowScore i wrow)

/-- The row's shifted exponentials. -/
def rowExp (i : Fin 2048) (wrow : Fin 2048 → EReal) (κ : Fin 2048) : EReal := Ideal.exp (rowScore i wrow κ - rowTop i wrow)

/-- The row's weighted values. -/
def rowWeighted (i : Fin 2048) (mrow wrow : Fin 2048 → EReal) (κ : Fin 2048) : EReal :=
  offDiag i κ (mrow κ) * Ideal.div (rowExp i wrow κ) (∑ κ' : Fin 2048, rowExp i wrow κ')

/-- The row's result against one feature column. -/
def rowOut (i : Fin 2048) (mrow wrow xcol : Fin 2048 → EReal) : EReal :=
  ∑ κ : Fin 2048, rowWeighted i mrow wrow κ * xcol κ

/-! ## The layout steps of the body at an index -/

/-- A vector of 1024 entries viewed as a column reads, at (r, 0), entry r. -/
theorem column_apply {α : Type} (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column laid along every column of a 1024 × 2048 rectangle reads, at (r, κ), the column's entry r. -/
theorem spread_apply {α : Type} (v : S1024x1.Idx → α) (h : S1024x1.Broadcasts S1024x2048) (r : Fin 1024) (κ : Fin 2048) :
    broadcastTo S1024x2048 v h (ix2 r κ) = v (ix2 r (0 : Fin 1)) := by
  refine broadcastTo_apply v h (ix2 r κ) (ix2 r (0 : Fin 1)) fun ax => ?_
  match ax with
  | ⟨0, _⟩ => rfl
  | ⟨1, _⟩ => rfl

/-- The reduced index r with column κ put back is (r, κ). -/
theorem lift_row (h : S1024x2048.Reduces [1] S1024) (r : Fin 1024) (κ : Fin (S1024x2048.size 1)) :
    h.lift (ix1 r) κ = ix2 r (⟨κ.val, κ.isLt⟩ : Fin 2048) := by
  funext c; apply Fin.ext
  fin_cases c <;> rfl

/-! ## The diagonal's bit -/

/-- Row q·1024 + r meets column κ exactly on the diagonal: the body's comparison of the two counters, as a bit. -/
theorem diag_bit (q1 r κ : Nat) (hq : q1 < 2) (hr : r < 1024) (hκ : κ < 2048) :
    IntOp.cmpi .eq (IntOp.addi (Scalar.muli (BitVec.ofNat 32 q1) 1024#32) (BitVec.ofNat 32 r)) (BitVec.ofNat 32 κ)
      = if q1 * 1024 + r = κ then 1#1 else 0#1 := by
  have e : IntOp.addi (Scalar.muli (BitVec.ofNat 32 q1) 1024#32) (BitVec.ofNat 32 r) = BitVec.ofNat 32 (q1 * 1024 + r) := by
    show BitVec.ofNat 32 q1 * 1024#32 + BitVec.ofNat 32 r = _
    apply BitVec.eq_of_toNat_eq
    simp only [BitVec.toNat_add, BitVec.toNat_mul, BitVec.toNat_ofNat]
    omega
  rw [e]
  show BitVec.ofBool (BitVec.ofNat 32 (q1 * 1024 + r) == BitVec.ofNat 32 κ) = _
  by_cases hd : q1 * 1024 + r = κ
  · rw [if_pos hd, hd]; simp
  · rw [if_neg hd]
    have : (BitVec.ofNat 32 (q1 * 1024 + r) == BitVec.ofNat 32 κ) = false := by
      rw [beq_eq_false_iff_ne]
      intro hc
      have := congrArg BitVec.toNat hc
      simp only [BitVec.toNat_ofNat] at this
      omega
    rw [this]; rfl

/-! ## The body's arithmetic on one row -/

section Row

variable (dg : IVec S1024x2048 1) (w m : FVec Ideal S1024x2048 .f32) (x : FVec Ideal S2048x128 .f32)
variable (hred : S1024x2048.Reduces [1] S1024) (hφ : FKind.Formats .f32)
variable (hmax : (0xFF800000#32 : BitVec 32) = FKind.maximumf.neutral .f32 hφ) (hadd : (0x00000000#32 : BitVec 32) = FKind.add.neutral .f32 hφ)
variable (hc : S1024.ShapeCasts S1024x1) (hb : S1024x1.Broadcasts S1024x2048)
variable (r : Fin 1024) (i : Fin 2048) (hdg : ∀ κ : Fin 2048, dg (ix2 r κ) = if i = κ then 1#1 else 0#1)

/-- The float zero spread over the block. -/
abbrev zeros : FVec Ideal S1024x2048 .f32 := broadcast S1024x2048 (FloatOps.ofBits (F := Ideal) FTy.f32 0x00000000#32)

include hdg in
/-- A block with its diagonal zeroed, read on row r. -/
theorem masked_apply (v : FVec Ideal S1024x2048 .f32) (κ : Fin 2048) :
    select dg zeros v (ix2 r κ) = offDiag i κ (v (ix2 r κ)) := by
  show Scalar.select (dg (ix2 r κ)) (Ideal.ofBits .f32 0x00000000#32) (v (ix2 r κ)) = _
  rw [hdg κ]; unfold offDiag
  by_cases h : i = κ
  · rw [if_pos h, if_pos h]; exact select_one _ _
  · rw [if_neg h, if_neg h]; exact select_zero _ _

include hdg in
/-- The row's maximum of the masked scores. -/
theorem top_apply :
    multiReduction .maximumf [1] S1024 (select dg zeros w) 0xFF800000#32 hred hφ hmax (ix1 r)
      = rowTop i (fun κ => w (ix2 r κ)) := by
  rw [Ideal.multiReduction_maximumf_single]
  unfold rowTop
  refine congrArg (fun f => Finset.fold max (Ideal.ofBits .f32 0xFF800000#32) f (Finset.univ : Finset (Fin 2048))) ?_
  funext κ
  show select dg zeros w (hred.lift (ix1 r) κ) = _
  rw [lift_row]
  exact masked_apply dg r i hdg w _

/-- The masked scores, shifted by the row's maximum and exponentiated (the body's numerator). -/
abbrev numer : FVec Ideal S1024x2048 .f32 :=
  exp (subf (select dg zeros w)
    (broadcastTo S1024x2048 (shapeCast S1024x1 (multiReduction .maximumf [1] S1024 (select dg zeros w) 0xFF800000#32 hred hφ hmax) hc) hb))

include hdg in
/-- The numerator on row r. -/
theorem numer_apply (κ : Fin 2048) :
    numer dg w hred hφ hmax hc hb (ix2 r κ) = rowExp i (fun κ => w (ix2 r κ)) κ := by
  show Ideal.exp (select dg zeros w (ix2 r κ)
      - broadcastTo S1024x2048 (shapeCast S1024x1 (multiReduction .maximumf [1] S1024 (select dg zeros w) 0xFF800000#32 hred hφ hmax) hc) hb (ix2 r κ)) = _
  rw [spread_apply, column_apply, top_apply dg w hred hφ hmax r i hdg, masked_apply dg r i hdg]
  rfl

include hdg in
/-- The row's sum of the numerators. -/
theorem total_apply :
    multiReduction .add [1] S1024 (numer dg w hred hφ hmax hc hb) 0x00000000#32 hred hφ hadd (ix1 r)
      = ∑ κ : Fin 2048, rowExp i (fun κ => w (ix2 r κ)) κ := by
  rw [Ideal.multiReduction_add_single]
  refine Finset.sum_congr rfl fun κ _ => ?_
  rw [lift_row]
  exact numer_apply dg w hred hφ hmax hc hb r i hdg _

include hdg in
/-- The weighted values on row r. -/
theorem weighted_apply (κ : Fin 2048) :
    mulf (select dg zeros m)
        (divf (numer dg w hred hφ hmax hc hb)
          (broadcastTo S1024x2048 (shapeCast S1024x1
            (multiReduction .add [1] S1024 (numer dg w hred hφ hmax hc hb) 0x00000000#32 hred hφ hadd) hc) hb)) (ix2 r κ)
      = rowWeighted i (fun κ => m (ix2 r κ)) (fun κ => w (ix2 r κ)) κ := by
  show select dg zeros m (ix2 r κ) * Ideal.div (numer dg w hred hφ hmax hc hb (ix2 r κ))
      (broadcastTo S1024x2048 (shapeCast S1024x1
            (multiReduction .add [1] S1024 (numer dg w hred hφ hmax hc hb) 0x00000000#32 hred hφ hadd) hc) hb (ix2 r κ)) = _
  rw [spread_apply, column_apply, total_apply dg w hred hφ hmax hadd hc hb r i hdg, numer_apply dg w hred hφ hmax hc hb r i hdg,
    masked_apply dg r i hdg]
  rfl

end Row

/-! ## The stored block at an index -/

/-- The body's diagonal test at grid point q, on row r of the block: set exactly at column i = q·1024 + r. -/
theorem diag_apply (q : grid0.Coords) (r : Fin 1024) (i : Fin 2048) (hi : i.val = (q 1).val * 1024 + r.val) (κ : Fin 2048) :
    (cmpi .eq (addi (broadcast S1024x2048 (Scalar.muli (BitVec.ofNat 32 (q 1).val) 1024#32))
        (iota .tc S1024x2048 32 [0] iota_S1024x2048_d0_w32)) (iota .tc S1024x2048 32 [1] iota_S1024x2048_d1_w32) : IVec S1024x2048 1) (ix2 r κ)
      = if i = κ then 1#1 else 0#1 := by
  show IntOp.cmpi .eq (IntOp.addi (Scalar.muli (BitVec.ofNat 32 (q 1).val) 1024#32) (iota .tc S1024x2048 32 [0] iota_S1024x2048_d0_w32 (ix2 r κ)))
      (iota .tc S1024x2048 32 [1] iota_S1024x2048_d1_w32 (ix2 r κ)) = _
  rw [iota_single_apply, iota_single_apply]
  show IntOp.cmpi .eq (IntOp.addi (Scalar.muli (BitVec.ofNat 32 (q 1).val) 1024#32) (BitVec.ofNat 32 r.val)) (BitVec.ofNat 32 κ.val) = _
  rw [diag_bit _ _ _ (show (q 1).val < 2 from (q 1).isLt) r.isLt κ.isLt]
  by_cases h : i = κ
  · rw [if_pos h, if_pos (by rw [← h, hi])]
  · rw [if_neg h, if_neg (fun hc => h (Fin.ext (by rw [hi]; exact hc)))]

/-- ENTRY (r, d) OF WHAT THE BODY STORES at grid point q: the row result of node i = q·1024 + r from row r of the two
    blocks and column d of the feature block. -/
theorem pay_apply (q : grid0.Coords) (wb mb : Vec Ideal S1x1024x2048 .f32) (xb : Vec Ideal S1x2048x128 .f32)
    (r : Fin 1024) (d : Fin 128) (i : Fin 2048) (hi : i.val = (q 1).val * 1024 + r.val) :
    k0_pay1 (F := Ideal) q wb mb xb (ix3 (0 : Fin 1) r d)
      = rowOut i (fun κ => mb (ix3 (0 : Fin 1) r κ)) (fun κ => wb (ix3 (0 : Fin 1) r κ)) (fun κ => xb (ix3 (0 : Fin 1) κ d)) := by
  unfold k0_pay1
  refine (shapeCast_ab_1ab_apply _ _ (0 : Fin 1) r d).trans ?_
  refine (Cert.LibDot.matmul_rows_apply _ rfl rfl rfl rfl rfl rfl _ _ _ _ r d).trans ?_
  refine (congrArg (· + _) (Ideal.ofBits_zero_f32)).trans ?_
  rw [zero_add]
  unfold rowOut
  refine Finset.sum_congr rfl fun κ _ => ?_
  refine congrArg₂ (fun a b : EReal => a * b)
    ((weighted_apply _ _ _ _ _ _ _ _ _ r i (diag_apply q r i hi) κ).trans ?_) (shapeCast_1ab_ab_apply xb _ κ d)
  simp only [shapeCast_1ab_ab_apply]

end Cert.KernelIdeal.Body

end
-- ==== Proof.KernelValue.lean ====
/-
  The kernel program's result array, as one function of its argument arrays.

  The region's grid has 16 points (b, q): batch b, half q of the 2048 nodes. At a point the pipeline stages rows
  q·1024 … q·1024 + 1023 of batch b's value and score arrays and the batch's whole feature block, the body computes a
  1024 × 128 block, and the pipeline writes it back as rows q·1024 … of batch b of the result. The sixteen blocks
  tile the result, so the result array is the specification's array once (i) the two staged arrays are the edge values
  and the absolute edge entries the host operations computed, and (ii) the body's block is the rows' results.
-/
import proofs.«412008_j77910706749811_3_alg».proof.Proof.ValueKernelIdeal
import proofs.«412008_j77910706749811_3_alg».proof.Proof.KernelHostTake
import proofs.«412008_j77910706749811_3_alg».proof.Proof.KernelBody

set_option maxRecDepth 16384

noncomputable section

open scoped BigOperators

namespace Cert.KernelIdeal.KValue

open Cert.KernelIdeal Cert.KernelIdeal.Gen Cert.KernelIdeal.GenP Cert.KernelIdeal.ValueP Cert.KernelIdeal.HostVal
open Cert.KernelIdeal.Body Cert.GraphAttn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds -/

/-- The region's entry contents are the launch contents after the four stretches of host operations, in order. -/
theorem V_stretches (c : Dev nD) (b : Ref sig .tc) :
    V m c b = StableHlo.after hostOps0_3 (StableHlo.after hostOps0_2 (StableHlo.after hostOps0_1
      (StableHlo.after hostOps0 (fun b => m (c, b))))) b := by
  dsimp only [V]
  rw [List.flatten_cons, List.flatten_cons, List.flatten_cons, List.flatten_cons, List.flatten_nil, List.append_nil,
    StableHlo.after_append, StableHlo.after_append, StableHlo.after_append]

/-- The first staged array holds the edge values the host operations selected. -/
theorem V_values (c : Dev nD) :
    (V m c main_v14 : S8x2048x2048.Idx → EReal)
      = valuesArr (F := Ideal) (m ((c.tc : Thread nD τ).loc main_arg2)) (m ((c.tc : Thread nD τ).loc main_arg1)) := by
  rw [V_stretches, values_after3, values_after2]
  refine (take_after1 _).trans ?_
  rw [rows2_after0, ids_after0]
  rfl

/-- The second staged array holds the absolute values of the second table's selected entries. -/
theorem V_scores (c : Dev nD) :
    (V m c main_v16 : S8x2048x2048.Idx → EReal)
      = scoresArr (F := Ideal) (m ((c.tc : Thread nD τ).loc main_arg3)) (m ((c.tc : Thread nD τ).loc main_arg1)) := by
  rw [V_stretches]
  refine (abs_after3 _).trans ?_
  rw [take_after2, rows3_after1, ids_after1, rows3_after0, ids_after0]
  rfl

/-! ## The argument arrays, and what is assumed of the two staged arrays -/

/-- The features, the ids and the two tables as launched on core `c`. -/
abbrev xOf (c : Dev nD) : S8x2048x128.Idx → EReal := m ((c.tc : Thread nD τ).loc main_arg0)
abbrev idsOf (c : Dev nD) : IVec S8x2048 32 := m ((c.tc : Thread nD τ).loc main_arg1)
abbrev mtOf (c : Dev nD) : S4000x4000.Idx → EReal := m ((c.tc : Thread nD τ).loc main_arg2)
abbrev wtOf (c : Dev nD) : S4000x4000.Idx → EReal := m ((c.tc : Thread nD τ).loc main_arg3)

/-- The host operations' selections ARE the tables' entries at the selected rows and columns (true when every id lies in
    the table: the not-a-number branch of the selection is then never taken). -/
def Selected (c : Dev nD) : Prop :=
  (∀ (b : Fin 8) (i j : Fin 2048), valuesArr (F := Ideal) (mtOf m c) (idsOf m c) (ix3 b i j) = edge (idsOf m c) (mtOf m c) b i j)
  ∧ (∀ (b : Fin 8) (i j : Fin 2048), take (F := Ideal) (rows (wtOf m c) (idsOf m c)) (idsOf m c) (ix3 b i j) = edge (idsOf m c) (wtOf m c) b i j)

/-- A row's result, written over the table entries, is the specification's entry (both unfold to the same sum). -/
theorem rowOut_eq_out (x : SFeat.Idx → EReal) (ids : IVec SIds 32) (mt wt : STab.Idx → EReal) (b : Fin 8) (i : Fin 2048) (d : Fin 128) :
    rowOut i (fun κ => edge ids mt b i κ) (fun κ => max (edge ids wt b i κ) (-(edge ids wt b i κ))) (fun κ => x (ix3 b κ d))
      = out x ids mt wt b i d := rfl

/-! ## The windows' blocks on the grid -/

theorem hz : (![0, 0, 0] : Fin 3 → Nat) = fun _ => 0 := funext fun a => by fin_cases a <;> rfl

/-- The printed index maps, decided over the 16 points: the two staged edge arrays and the result move with the point's
    batch and half, the features with its batch only. -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = (grid0.coords t 1).val ∧ win0_1.index t (2 : Fin 3) = 0
    ∧ win0_2.index t (0 : Fin 3) = (grid0.coords t 0).val ∧ win0_2.index t (1 : Fin 3) = 0 ∧ win0_2.index t (2 : Fin 3) = 0
    ∧ win0_3.index t (0 : Fin 3) = (grid0.coords t 0).val ∧ win0_3.index t (1 : Fin 3) = (grid0.coords t 1).val ∧ win0_3.index t (2 : Fin 3) = 0
    ∧ (grid0.coords t 0).val < 8 ∧ (grid0.coords t 1).val < 2 :=
  (by decide +kernel : ∀ t : Fin grid0.N, _)

/-- Every (batch, half) is some point's. -/
theorem idx_onto : ∀ (b : Fin 8) (q : Fin 2), ∃ t : Fin cfg0.N, win0_3.index t = ![b.val, q.val, 0] :=
  (by decide +kernel : ∀ (b : Fin 8) (q : Fin 2), ∃ t : Fin grid0.N, win0_3.index t = ![b.val, q.val, 0])

/-- Row r of the value block staged at point `t` is row i = q·1024 + r of batch b of the edge values. -/
theorem values_row (c : Dev nD) (hS : Selected m c) (t : Fin cfg0.N) (r : Fin 1024) (b : Fin 8) (i : Fin 2048)
    (hbv : b.val = (grid0.coords t 0).val) (hiv : i.val = (grid0.coords t 1).val * 1024 + r.val) :
    (fun κ : Fin 2048 => iblk m c 0 t (ix3 (0 : Fin 1) r κ)) = fun κ => edge (idsOf m c) (mtOf m c) b i κ := by
  obtain ⟨e00, e01, e02, -⟩ := idx_facts t
  funext κ
  have hemb : ((cfg0.win 0).blk t).view.emb (ix3 (0 : Fin 1) r κ) = ix3 b i κ := by
    funext a; apply Fin.ext
    match a with
    | ⟨0, _⟩ => show win0_0.index t (0 : Fin 3) * 1 + 1 * 0 = b.val; omega
    | ⟨1, _⟩ => show win0_0.index t (1 : Fin 3) * 1024 + 1 * r.val = i.val; omega
    | ⟨2, _⟩ => show win0_0.index t (2 : Fin 3) * 2048 + 1 * κ.val = κ.val; omega
  show V m c main_v14 (((cfg0.win 0).blk t).view.emb (ix3 (0 : Fin 1) r κ)) = _
  rw [hemb]
  exact (congrFun (V_values m c) (ix3 b i κ)).trans (hS.1 b i κ)

/-- Row r of the score block staged at point `t` is the absolute value of row i of batch b of the second table's entries. -/
theorem scores_row (c : Dev nD) (hS : Selected m c) (t : Fin cfg0.N) (r : Fin 1024) (b : Fin 8) (i : Fin 2048)
    (hbv : b.val = (grid0.coords t 0).val) (hiv : i.val = (grid0.coords t 1).val * 1024 + r.val) :
    (fun κ : Fin 2048 => iblk m c 1 t (ix3 (0 : Fin 1) r κ))
      = fun κ => max (edge (idsOf m c) (wtOf m c) b i κ) (-(edge (idsOf m c) (wtOf m c) b i κ)) := by
  obtain ⟨-, -, -, e10, e11, e12, -⟩ := idx_facts t
  funext κ
  have hemb : ((cfg0.win 1).blk t).view.emb (ix3 (0 : Fin 1) r κ) = ix3 b i κ := by
    funext a; apply Fin.ext
    match a with
    | ⟨0, _⟩ => show win0_1.index t (0 : Fin 3) * 1 + 1 * 0 = b.val; omega
    | ⟨1, _⟩ => show win0_1.index t (1 : Fin 3) * 1024 + 1 * r.val = i.val; omega
    | ⟨2, _⟩ => show win0_1.index t (2 : Fin 3) * 2048 + 1 * κ.val = κ.val; omega
  show V m c main_v16 (((cfg0.win 1).blk t).view.emb (ix3 (0 : Fin 1) r κ)) = _
  rw [hemb]
  refine (congrFun (V_scores m c) (ix3 b i κ)).trans ?_
  show max (take (F := Ideal) (rows (wtOf m c) (idsOf m c)) (idsOf m c) (ix3 b i κ))
    (-(take (F := Ideal) (rows (wtOf m c) (idsOf m c)) (idsOf m c) (ix3 b i κ))) = _
  rw [hS.2 b i κ]

/-- Column d of the feature block staged at point `t` is column d of batch b's features. -/
theorem features_col (c : Dev nD) (t : Fin cfg0.N) (d : Fin 128) (b : Fin 8) (hbv : b.val = (grid0.coords t 0).val) :
    (fun κ : Fin 2048 => iblk m c 2 t (ix3 (0 : Fin 1) κ d)) = fun κ => xOf m c (ix3 b κ d) := by
  obtain ⟨-, -, -, -, -, -, e20, e21, e22, -⟩ := idx_facts t
  funext κ
  have hemb : ((cfg0.win 2).blk t).view.emb (ix3 (0 : Fin 1) κ d) = ix3 b κ d := by
    funext a; apply Fin.ext
    match a with
    | ⟨0, _⟩ => show win0_2.index t (0 : Fin 3) * 1 + 1 * 0 = b.val; omega
    | ⟨1, _⟩ => show win0_2.index t (1 : Fin 3) * 2048 + 1 * κ.val = κ.val; omega
    | ⟨2, _⟩ => show win0_2.index t (2 : Fin 3) * 128 + 1 * d.val = d.val; omega
  show V m c (Pipeline.arrRef spec0 2) (((cfg0.win 2).blk t).view.emb (ix3 (0 : Fin 1) κ d)) = _
  rw [hemb]
  exact congrFun (V_main_arg0 m c) (ix3 b κ d)

/-- Entry (r, d) of the block point `t` writes back lands at (b, i, d) of the result. -/
theorem result_at (t : Fin cfg0.N) (r : Fin 1024) (d : Fin 128) (b : Fin 8) (i : Fin 2048)
    (hbv : b.val = (grid0.coords t 0).val) (hiv : i.val = (grid0.coords t 1).val * 1024 + r.val) :
    ((cfg0.win 3).blk t).view.emb (ix3 (0 : Fin 1) r d) = ix3 b i d := by
  obtain ⟨-, -, -, -, -, -, -, -, -, e30, e31, e32, -⟩ := idx_facts t
  funext a; apply Fin.ext
  match a with
  | ⟨0, _⟩ => show win0_3.index t (0 : Fin 3) * 1 + 1 * 0 = b.val; omega
  | ⟨1, _⟩ => show win0_3.index t (1 : Fin 3) * 1024 + 1 * r.val = i.val; omega
  | ⟨2, _⟩ => show win0_3.index t (2 : Fin 3) * 128 + 1 * d.val = d.val; omega

set_option maxHeartbeats 1000000 in
/-- WHAT POINT `t` WRITES BACK is block `t` of the specification's array. -/
theorem flushed_eq (c : Dev nD) (hS : Selected m c) (t : Fin cfg0.N) :
    (dats m 0 c).flushed 3 t
      = ((cfg0.win 3).blk t).view.read (Elt Ideal) (outArr (xOf m c) (idsOf m c) (mtOf m c) (wtOf m c)) := by
  rw [flushed3]
  unfold out0_3
  rw [View.canon_unit_zero hz]
  simp only [View.ld_unit_zero (S := S1x1024x2048) hz, View.ld_unit_zero (S := S1x2048x128) hz]
  have hb : (grid0.coords t 0).val < 8 := (idx_facts t).2.2.2.2.2.2.2.2.2.2.2.2.1
  have hq : (grid0.coords t 1).val < 2 := (idx_facts t).2.2.2.2.2.2.2.2.2.2.2.2.2
  refine funext fun (y : S1x1024x128.Idx) => ?_
  obtain ⟨u, r, d, rfl⟩ : ∃ (u : Fin 1) (r : Fin 1024) (d : Fin 128), y = ix3 u r d := ⟨y 0, y 1, y 2, eq_ix3 y⟩
  obtain rfl : u = 0 := Subsingleton.elim _ _
  have hi : (grid0.coords t 1).val * 1024 + r.val < 2048 := by have := r.isLt; omega
  -- the point's batch, and the node that row r of the block is
  obtain ⟨b, hbv⟩ : ∃ b : Fin 8, b.val = (grid0.coords t 0).val := ⟨⟨_, hb⟩, rfl⟩
  obtain ⟨i, hiv⟩ : ∃ i : Fin 2048, i.val = (grid0.coords t 1).val * 1024 + r.val := ⟨⟨_, hi⟩, rfl⟩
  show k0_pay1 (F := Ideal) (grid0.coords t) (iblk m c 1 t) (iblk m c 0 t) (iblk m c 2 t) (ix3 (0 : Fin 1) r d)
    = outArr (xOf m c) (idsOf m c) (mtOf m c) (wtOf m c) (((cfg0.win 3).blk t).view.emb (ix3 (0 : Fin 1) r d))
  refine (pay_apply (grid0.coords t) _ _ _ r d i hiv).trans ?_
  rw [values_row m c hS t r b i hbv hiv, scores_row m c hS t r b i hbv hiv, features_col m c t d b hbv,
    result_at t r d b i hbv hiv]
  exact rowOut_eq_out (xOf m c) (idsOf m c) (mtOf m c) (wtOf m c) b i d

/-! ## The result array -/

/-- An index of the result is in point `t`'s block iff each coordinate is in the block's range on its axis. -/
theorem mem_blk (t : Fin cfg0.N) (j : S8x2048x128.Idx) :
    j ∈ ((cfg0.win 3).blk t).view.set ↔ ∀ a : Fin 3, win0_3.index t a * S1x1024x128.size a ≤ (j a).val
      ∧ (j a).val < win0_3.index t a * S1x1024x128.size a + S1x1024x128.size a := by
  show j ∈ ((View.whole main_v17).slice (win0_3.rect t)).set ↔ _
  rw [View.set_slice_whole, Rect.mem_set_unit]
  exact Iff.rfl

/-- The sixteen blocks tile the result: entry (b, i, d) is in the block of point (b, i / 1024). -/
theorem cover (j : S8x2048x128.Idx) : ∃ t : Fin cfg0.N, (cfg0.win 3).flush t = true ∧ j ∈ ((cfg0.win 3).blk t).view.set := by
  have h0 : (j 0).val < 8 := (j 0).isLt
  have h1 : (j 1).val < 2048 := (j 1).isLt
  have h2 : (j 2).val < 128 := (j 2).isLt
  obtain ⟨t, ht⟩ := idx_onto ⟨(j 0).val, h0⟩ ⟨(j 1).val / 1024, by omega⟩
  have q0 : win0_3.index t (0 : Fin 3) = (j 0).val := congrFun ht 0
  have q1 : win0_3.index t (1 : Fin 3) = (j 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (j 0).val ∧ (j 0).val < win0_3.index t (0 : Fin 3) * 1 + 1; omega
  | ⟨1, _⟩ => show win0_3.index t (1 : Fin 3) * 1024 ≤ (j 1).val ∧ (j 1).val < win0_3.index t (1 : Fin 3) * 1024 + 1024; omega
  | ⟨2, _⟩ => show win0_3.index t (2 : Fin 3) * 128 ≤ (j 2).val ∧ (j 2).val < win0_3.index t (2 : Fin 3) * 128 + 128; omega

/-- THE RESULT ARRAY after the run is the specification's array of the argument arrays. -/
theorem final (c : Dev nD) (hS : Selected m c) :
    (dats m 0 c).arrAt 3 cfg0.N = outArr (xOf m c) (idsOf m c) (mtOf m c) (wtOf m c) :=
  (dats m 0 c).arrAt_eq_of_cover 3 (outArr (xOf m c) (idsOf m c) (mtOf m c) (wtOf m c)) (fun t _ => flushed_eq m c hS t) cover

/-- The run, read: the result at the specification's array, the arguments unchanged. -/
theorem run (hS : ∀ c, Selected m c) :
    θ_run defs (onTc (τ := τ) (main (F := Ideal))) ⟨m, fun _ => 0, ρ⟩ fun r => ∀ c : Dev nD,
      r.2.mem ((c : Thread nD τ).loc main_v17) = outArr (xOf m c) (idsOf m c) (mtOf m c) (wtOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hS c)), (h c).2⟩) (run_blocks m ρ)

end Cert.KernelIdeal.KValue

end
-- ==== Proof.KernelHostAt.lean ====
/-
  The kernel program's host side, read at an index: under ids that lie in the tables, the array it hands the region is
  the table entry of each edge.

  The host gathers, for every node (b, i), the table row its wrapped id selects, and then, batched over b, from row
  (b, i) the column that node (b, j)'s wrapped id selects; each start index is read signed and clamped into the table.
  It keeps the entry where the column's id satisfies 0 ≤ id ≤ 3999 and writes a not-a-number elsewhere. When every id
  lies in [0, 4000) the wrap is the identity, the range bit is 1 everywhere, and the two gathers together read the table
  at (pos b i, pos b j).
-/
import proofs.«412008_j77910706749811_3_alg».proof.Proof.KernelHost
import proofs.«412008_j77910706749811_3_alg».proof.Proof.Spec
import Idealize.ShloMosaic.Lib.ReduceAll

noncomputable section
namespace Cert.KernelIdeal.HostVal
open Cert.KernelIdeal Cert.KernelIdeal.Gen Idealize.ShloMosaic Idealize.ShloMosaic.ValueIdx

/-! ## The start indices and the range bit -/

/-- The column of start indices at (b, i, 0) is node `i`'s wrapped id. -/
theorem column_at (ids : IVec S8x2048 32) (b : Fin 8) (i : Fin 2048) (z : Fin 1) :
    column ids (ix3 b i z) = Cert.GraphAttn.wrap (ids (ix2 b i)) := by
  unfold column
  rw [broadcastInDim_apply _ bcast_S8x2048_S8x2048x1_0_1 (wrapped ids) (ix3 b i z) (ix2 b i) (fun a => match a with
    | ⟨0, _⟩ => by show b.val = if (8 : Nat) = 1 then 0 else b.val; rw [if_neg (by decide)]
    | ⟨1, _⟩ => by show i.val = if (2048 : Nat) = 1 then 0 else i.val; rw [if_neg (by decide)])]
  rfl

/-- A left fold by "and" from 1 over bits that are all 1 is 1. -/
theorem foldl_andi_one {ι : Type} (f : ι → BitVec 1) : ∀ l : List ι, (∀ n ∈ l, f n = 1#1) →
    l.foldl (fun r n => IntOp.andi r (f n)) 1#1 = 1#1
  | [], _ => rfl
  | a :: l, h => by
    have e : IntOp.andi 1#1 1#1 = 1#1 := by decide
    rw [List.foldl_cons, h a (List.mem_cons.2 (Or.inl rfl)), e]
    exact foldl_andi_one f l fun n hn => h n (List.mem_cons.2 (Or.inr hn))

/-- Below 4000 is at most 3999, for signed 32-bit words. -/
theorem sle_of_slt {v : BitVec 32} (h : IntOp.cmpi .slt v 4000#32 = 1#1) : IntOp.cmpi .sle v 3999#32 = 1#1 := by
  simp only [IntOp.cmpi] at h ⊢
  have h1 : v.slt 4000#32 = true := by
    by_contra hc; simp only [Bool.not_eq_true] at hc; rw [hc] at h; exact absurd h (by decide)
  have h2 : v.sle 3999#32 = true := by
    rw [BitVec.slt] at h1; rw [BitVec.sle]
    simp only [decide_eq_true_eq] at *
    have e1 : (4000#32 : BitVec 32).toInt = 4000 := by decide
    have e2 : (3999#32 : BitVec 32).toInt = 3999 := by decide
    omega
  rw [h2]; rfl

/-- With every id in [0, 4000) the range bit is 1 at every node. -/
theorem inTable_eq_one (ids : IVec S8x2048 32) (h : Cert.GraphAttn.InRange ids) (y : S8x2048.Idx) :
    inTable ids y = 1#1 := by
  unfold inTable
  rw [Host.reduce_eq_foldl]
  refine foldl_andi_one _ _ fun n _ => ?_
  obtain ⟨b, i, z, rfl⟩ : ∃ (b : Fin 8) (i : Fin 2048) (z : Fin 1), n = ix3 b i z := ⟨n 0, n 1, n 2, eq_ix3 n⟩
  show IntOp.andi (IntOp.cmpi .sge (column ids (ix3 b i z)) 0#32) (IntOp.cmpi .sle (column ids (ix3 b i z)) 3999#32) = 1#1
  rw [column_at, Cert.GraphAttn.wrap_of_nonneg (h b i).1]
  exact IntOp.andi_eq_one.2 ⟨(h b i).1, sle_of_slt (h b i).2⟩

/-! ## The row gather: rows of a table at a column of start indices -/

/-- On the table's row axis the operand index is the start index, read signed and clamped. -/
theorem rowsG_coord0 (idx : IVec S8x2048x1 32) (b : Fin 8) (i : Fin 2048) (c : Fin 4000) :
    (GatherDims.operandIdx gather_S4000x4000_S8x2048x1_S8x2048x4000_2_0_n_n_0_2_14000 (ix3 b i c) idx (0 : Fin 2)).val
      = (Cert.GraphAttn.clamp (idx (ix3 b i (0 : Fin 1)))).val := by
  show GatherDims.start gather_S4000x4000_S8x2048x1_S8x2048x4000_2_0_n_n_0_2_14000 (ix3 b i c) idx (0 : Fin 2)
      + GatherDims.batchCoord gather_S4000x4000_S8x2048x1_S8x2048x4000_2_0_n_n_0_2_14000 (ix3 b i c) (0 : Fin 2)
      + GatherDims.offCoord gather_S4000x4000_S8x2048x1_S8x2048x4000_2_0_n_n_0_2_14000 (ix3 b i c) (0 : Fin 2) = _
  rw [GatherDims.batchCoord_eq_zero _ _ _ List.not_mem_nil,
    GatherDims.offCoord_eq_zero _ _ _ (fun h => ((GatherDims.mem_sKept _ _).mp h).1
      (show (0 : Fin 2) ∈ gather_S4000x4000_S8x2048x1_S8x2048x4000_2_0_n_n_0_2_14000.collapsedSliceDims by decide))]
  simp only [Nat.add_zero]
  unfold GatherDims.start
  rw [dif_pos (show (0 : Fin 2) ∈ gather_S4000x4000_S8x2048x1_S8x2048x4000_2_0_n_n_0_2_14000.startIndexMap by decide)]
  have hsi : GatherDims.siIdx gather_S4000x4000_S8x2048x1_S8x2048x4000_2_0_n_n_0_2_14000 (ix3 b i c)
      ⟨List.idxOf (0 : Fin 2) gather_S4000x4000_S8x2048x1_S8x2048x4000_2_0_n_n_0_2_14000.startIndexMap,
        List.idxOf_lt_length_iff.2 (show (0 : Fin 2) ∈ gather_S4000x4000_S8x2048x1_S8x2048x4000_2_0_n_n_0_2_14000.startIndexMap by decide)⟩ = ix3 b i (0 : Fin 1) := by
    funext a; refine Fin.ext ?_
    match a with
    | ⟨0, _⟩ => rfl
    | ⟨1, _⟩ => rfl
    | ⟨2, _⟩ => rfl
  rw [hsi]
  rfl

/-- On the table's column axis the operand index is the result's offset coordinate. -/
theorem rowsG_coord1 (idx : IVec S8x2048x1 32) (b : Fin 8) (i : Fin 2048) (c : Fin 4000) :
    (GatherDims.operandIdx gather_S4000x4000_S8x2048x1_S8x2048x4000_2_0_n_n_0_2_14000 (ix3 b i c) idx (1 : Fin 2)).val = c.val := by
  show GatherDims.start gather_S4000x4000_S8x2048x1_S8x2048x4000_2_0_n_n_0_2_14000 (ix3 b i c) idx (1 : Fin 2)
      + GatherDims.batchCoord gather_S4000x4000_S8x2048x1_S8x2048x4000_2_0_n_n_0_2_14000 (ix3 b i c) (1 : Fin 2)
      + GatherDims.offCoord gather_S4000x4000_S8x2048x1_S8x2048x4000_2_0_n_n_0_2_14000 (ix3 b i c) (1 : Fin 2) = _
  have hs : GatherDims.start gather_S4000x4000_S8x2048x1_S8x2048x4000_2_0_n_n_0_2_14000 (ix3 b i c) idx (1 : Fin 2) = 0 := by
    unfold GatherDims.start
    rw [dif_neg (show ¬ (1 : Fin 2) ∈ gather_S4000x4000_S8x2048x1_S8x2048x4000_2_0_n_n_0_2_14000.startIndexMap by decide)]
  rw [hs, GatherDims.batchCoord_eq_zero _ _ _ List.not_mem_nil]
  simp only [Nat.zero_add, Nat.add_zero]
  unfold GatherDims.offCoord
  rw [dif_pos (show (1 : Fin 2) ∈ gather_S4000x4000_S8x2048x1_S8x2048x4000_2_0_n_n_0_2_14000.sKept by decide)]
  rfl

/-- The row gather at (b, i, c): the table at the row the start index selects, column `c`. -/
theorem rowsG_apply {α : Type} (x : S4000x4000.Idx → α) (idx : IVec S8x2048x1 32) (b : Fin 8) (i : Fin 2048) (c : Fin 4000) :
    Host.gather gather_S4000x4000_S8x2048x1_S8x2048x4000_2_0_n_n_0_2_14000 x idx (ix3 b i c) = x (ix2 (Cert.GraphAttn.clamp (idx (ix3 b i (0 : Fin 1)))) c) := by
  unfold Host.gather
  congr 1
  funext a
  refine Fin.ext ?_
  match a with
  | ⟨0, _⟩ => exact rowsG_coord0 idx b i c
  | ⟨1, _⟩ => exact rowsG_coord1 idx b i c

/-! ## The column gather, batched over b: from row (b, i) the column that node (b, j)'s start index selects -/

/-- On the batch axis the operand index is the result's batch coordinate. -/
theorem colsG_coord0 (idx : IVec S8x2048x1 32) (b : Fin 8) (i j : Fin 2048) :
    (GatherDims.operandIdx gather_S8x2048x4000_S8x2048x1_S8x2048x2048_1_2_0_0_2_2_120481 (ix3 b i j) idx (0 : Fin 3)).val = b.val := by
  show GatherDims.start gather_S8x2048x4000_S8x2048x1_S8x2048x2048_1_2_0_0_2_2_120481 (ix3 b i j) idx (0 : Fin 3)
      + GatherDims.batchCoord gather_S8x2048x4000_S8x2048x1_S8x2048x2048_1_2_0_0_2_2_120481 (ix3 b i j) (0 : Fin 3)
      + GatherDims.offCoord gather_S8x2048x4000_S8x2048x1_S8x2048x2048_1_2_0_0_2_2_120481 (ix3 b i j) (0 : Fin 3) = _
  rw [GatherDims.start_batching _ _ _ _ (show (0 : Fin 3) ∈ gather_S8x2048x4000_S8x2048x1_S8x2048x2048_1_2_0_0_2_2_120481.operandBatchingDims by decide),
    GatherDims.offCoord_eq_zero _ _ _ (fun h => ((GatherDims.mem_sKept _ _).mp h).2
      (show (0 : Fin 3) ∈ gather_S8x2048x4000_S8x2048x1_S8x2048x2048_1_2_0_0_2_2_120481.operandBatchingDims by decide))]
  simp only [Nat.zero_add, Nat.add_zero]
  unfold GatherDims.batchCoord
  rw [dif_pos (show (0 : Fin 3) ∈ gather_S8x2048x4000_S8x2048x1_S8x2048x2048_1_2_0_0_2_2_120481.operandBatchingDims by decide)]
  rfl

/-- On the row axis the operand index is the result's offset coordinate. -/
theorem colsG_coord1 (idx : IVec S8x2048x1 32) (b : Fin 8) (i j : Fin 2048) :
    (GatherDims.operandIdx gather_S8x2048x4000_S8x2048x1_S8x2048x2048_1_2_0_0_2_2_120481 (ix3 b i j) idx (1 : Fin 3)).val = i.val := by
  show GatherDims.start gather_S8x2048x4000_S8x2048x1_S8x2048x2048_1_2_0_0_2_2_120481 (ix3 b i j) idx (1 : Fin 3)
      + GatherDims.batchCoord gather_S8x2048x4000_S8x2048x1_S8x2048x2048_1_2_0_0_2_2_120481 (ix3 b i j) (1 : Fin 3)
      + GatherDims.offCoord gather_S8x2048x4000_S8x2048x1_S8x2048x2048_1_2_0_0_2_2_120481 (ix3 b i j) (1 : Fin 3) = _
  have hs : GatherDims.start gather_S8x2048x4000_S8x2048x1_S8x2048x2048_1_2_0_0_2_2_120481 (ix3 b i j) idx (1 : Fin 3) = 0 := by
    unfold GatherDims.start
    rw [dif_neg (show ¬ (1 : Fin 3) ∈ gather_S8x2048x4000_S8x2048x1_S8x2048x2048_1_2_0_0_2_2_120481.startIndexMap by decide)]
  rw [hs, GatherDims.batchCoord_eq_zero _ _ _ (show ¬ (1 : Fin 3) ∈ gather_S8x2048x4000_S8x2048x1_S8x2048x2048_1_2_0_0_2_2_120481.operandBatchingDims by decide)]
  simp only [Nat.zero_add, Nat.add_zero]
  unfold GatherDims.offCoord
  rw [dif_pos (show (1 : Fin 3) ∈ gather_S8x2048x4000_S8x2048x1_S8x2048x2048_1_2_0_0_2_2_120481.sKept by decide)]
  rfl

/-- On the column axis the operand index is node (b, j)'s start index, read signed and clamped. -/
theorem colsG_coord2 (idx : IVec S8x2048x1 32) (b : Fin 8) (i j : Fin 2048) :
    (GatherDims.operandIdx gather_S8x2048x4000_S8x2048x1_S8x2048x2048_1_2_0_0_2_2_120481 (ix3 b i j) idx (2 : Fin 3)).val
      = (Cert.GraphAttn.clamp (idx (ix3 b j (0 : Fin 1)))).val := by
  show GatherDims.start gather_S8x2048x4000_S8x2048x1_S8x2048x2048_1_2_0_0_2_2_120481 (ix3 b i j) idx (2 : Fin 3)
      + GatherDims.batchCoord gather_S8x2048x4000_S8x2048x1_S8x2048x2048_1_2_0_0_2_2_120481 (ix3 b i j) (2 : Fin 3)
      + GatherDims.offCoord gather_S8x2048x4000_S8x2048x1_S8x2048x2048_1_2_0_0_2_2_120481 (ix3 b i j) (2 : Fin 3) = _
  rw [GatherDims.batchCoord_eq_zero _ _ _ (show ¬ (2 : Fin 3) ∈ gather_S8x2048x4000_S8x2048x1_S8x2048x2048_1_2_0_0_2_2_120481.operandBatchingDims by decide),
    GatherDims.offCoord_eq_zero _ _ _ (fun h => ((GatherDims.mem_sKept _ _).mp h).1
      (show (2 : Fin 3) ∈ gather_S8x2048x4000_S8x2048x1_S8x2048x2048_1_2_0_0_2_2_120481.collapsedSliceDims by decide))]
  simp only [Nat.add_zero]
  unfold GatherDims.start
  rw [dif_pos (show (2 : Fin 3) ∈ gather_S8x2048x4000_S8x2048x1_S8x2048x2048_1_2_0_0_2_2_120481.startIndexMap by decide)]
  have hsi : GatherDims.siIdx gather_S8x2048x4000_S8x2048x1_S8x2048x2048_1_2_0_0_2_2_120481 (ix3 b i j)
      ⟨List.idxOf (2 : Fin 3) gather_S8x2048x4000_S8x2048x1_S8x2048x2048_1_2_0_0_2_2_120481.startIndexMap,
        List.idxOf_lt_length_iff.2 (show (2 : Fin 3) ∈ gather_S8x2048x4000_S8x2048x1_S8x2048x2048_1_2_0_0_2_2_120481.startIndexMap by decide)⟩ = ix3 b j (0 : Fin 1) := by
    funext a; refine Fin.ext ?_
    match a with
    | ⟨0, _⟩ => rfl
    | ⟨1, _⟩ => rfl
    | ⟨2, _⟩ => rfl
  rw [hsi]
  rfl

/-- The column gather at (b, i, j): row (b, i) of the operand at the column node (b, j)'s start index selects. -/
theorem colsG_apply {α : Type} (r : S8x2048x4000.Idx → α) (idx : IVec S8x2048x1 32) (b : Fin 8) (i j : Fin 2048) :
    Host.gather gather_S8x2048x4000_S8x2048x1_S8x2048x2048_1_2_0_0_2_2_120481 r idx (ix3 b i j) = r (ix3 b i (Cert.GraphAttn.clamp (idx (ix3 b j (0 : Fin 1))))) := by
  unfold Host.gather
  congr 1
  funext a
  refine Fin.ext ?_
  match a with
  | ⟨0, _⟩ => exact colsG_coord0 idx b i j
  | ⟨1, _⟩ => exact colsG_coord1 idx b i j
  | ⟨2, _⟩ => exact colsG_coord2 idx b i j

/-! ## The array handed to the region -/

theorem take_rows_apply (tab : FVec Ideal S4000x4000 .f32) (ids : IVec S8x2048 32) (h : Cert.GraphAttn.InRange ids)
    (b : Fin 8) (i j : Fin 2048) :
    take (F := Ideal) (rows tab ids) ids (ix3 b i j) = Cert.GraphAttn.edge ids tab b i j := by
  unfold take
  rw [select_apply]
  have hb : broadcastInDim S8x2048x2048 ![0, 2] bcast_S8x2048_S8x2048x2048_0_2 (inTable ids) (ix3 b i j) = 1#1 :=
    inTable_eq_one ids h _
  rw [hb, select_one, colsG_apply]
  unfold rows
  rw [rowsG_apply, column_at, column_at]
  rfl

end Cert.KernelIdeal.HostVal
end
-- ==== Proof.PreIds.lean ====
/-
  The ids the precondition allows lie in the tables.

  The precondition is a conjunction of five "all" conditions; its last two say that every id is at least 0 and that
  every id is below 4000. Each is a reduce by "and" from 1 over the whole id array into a scalar, so if the conjunction
  is 1 then each comparison bit is 1 at every (b, i).
-/
import proofs.«412008_j77910706749811_3_alg».proof.Proof.Spec
import proofs.«412008_j77910706749811_3_alg».proof.Proof.Gen.Pre_finite_inputs
import Idealize.ShloMosaic.Lib.ReduceAll

noncomputable section
namespace Cert.Pre_finite_inputs.Ids
open Idealize.ShloMosaic

/-- The scalar shape has one index. -/
instance : Subsingleton Cert.Pre_finite_inputs.S_.Idx := ⟨fun _ _ => funext fun d => d.elim0⟩

theorem inRange_of_pre [Cert.Pre_finite_inputs.Facts] (x0 : FVec Ideal Cert.Pre_finite_inputs.S8x2048x128 .f32)
    (ids : IVec Cert.Pre_finite_inputs.S8x2048 32) (x2 x3 : FVec Ideal Cert.Pre_finite_inputs.S4000x4000 .f32)
    (h : Cert.Pre_finite_inputs.fn (F := Ideal) x0 ids x2 x3 = fun _ => 1#1) : Cert.GraphAttn.InRange ids := by
  have h0 := congrFun h ValueIdx.ix0
  dsimp only [Cert.Pre_finite_inputs.fn, Cert.Pre_finite_inputs.fn_part1] at h0
  -- the conjunction, opened from its last conjunct inwards
  obtain ⟨h17, hlt⟩ := IntOp.andi_eq_one.1 h0
  obtain ⟨_, hge⟩ := IntOp.andi_eq_one.1 h17
  intro b i
  exact ⟨Host.reduce_andi_all _ _ _ _ _ hge (ValueIdx.ix2 b i), Host.reduce_andi_all _ _ _ _ _ hlt (ValueIdx.ix2 b i)⟩

end Cert.Pre_finite_inputs.Ids
end
-- ==== Proof.RefValue.lean ====
/-
  The reference program's result is the specification's `outArr`, element by element over the extended reals.

  Read in program order at explicit coordinates (b, i, j, d): the two start-index columns hold the wrapped ids of
  nodes i and j; joined on the last axis they are the start indices of a gather that reads a 4000 × 4000 table at the
  clamped pair, which is the edge's table entry; the iota comparison is the diagonal; the masked gathers are the
  edge's value and score; the reduce with a maximum body from −∞ is the row's largest score; the exponentials, their
  sum from zero, the quotient and the product are the weighted edge value; and the batched contraction with the
  features is the sum over j.
-/
import proofs.«412008_j77910706749811_3_alg».proof.Proof.Gen.ReferenceIdeal.Read
import proofs.«412008_j77910706749811_3_alg».proof.Proof.Spec

noncomputable section
namespace Cert.ReferenceIdeal.RefValue
open Cert.ReferenceIdeal Cert.ReferenceIdeal.Gen Cert.ReferenceIdeal.Read Idealize.ShloMosaic Idealize.ShloMosaic.ValueIdx
open scoped BigOperators

/-! ## The wrapped ids, as the two index columns of the gathers -/

/-- The row column of the first gather's start indices holds the wrapped id of node `i`. -/
theorem v14_at (x1 : (⟨S8x2048, .i32⟩ : BufTy).Contents (Elt Ideal)) (b : Fin 8) (i j : Fin 2048) (z : Fin 1) :
    val_main_v14 (F := Ideal) x1 (ix4 b i j z) = Cert.GraphAttn.wrap (x1 (ix2 b i)) := by
  rw [val_main_v14_apply, val_main_v12_apply, val_main_v6_apply, val_main_v3_apply, val_main_v5_apply,
    val_main_v0_apply, val_main_v2_apply, val_main_v4_apply, val_main_c_apply, val_main_c_0_apply]
  have e : idx_main_v0 (idx_main_v12 (idx_main_v14 (ix4 b i j z))) = ix2 b i := by
    funext a; match a with | ⟨0, _⟩ => rfl | ⟨1, _⟩ => rfl
  rw [e]; rfl

/-- The column column of the first gather's start indices holds the wrapped id of node `j`. -/
theorem v15_at (x1 : (⟨S8x2048, .i32⟩ : BufTy).Contents (Elt Ideal)) (b : Fin 8) (i j : Fin 2048) (z : Fin 1) :
    val_main_v15 (F := Ideal) x1 (ix4 b i j z) = Cert.GraphAttn.wrap (x1 (ix2 b j)) := by
  rw [val_main_v15_apply, val_main_v13_apply, val_main_v11_apply, val_main_v8_apply, val_main_v10_apply,
    val_main_v1_apply, val_main_v7_apply, val_main_v9_apply, val_main_c_1_apply, val_main_c_2_apply]
  have e : idx_main_v1 (idx_main_v13 (idx_main_v15 (ix4 b i j z))) = ix2 b j := by
    funext a; match a with | ⟨0, _⟩ => rfl | ⟨1, _⟩ => rfl
  rw [e]; rfl

/-- The same two columns of the second gather's start indices. -/
theorem v32_at (x1 : (⟨S8x2048, .i32⟩ : BufTy).Contents (Elt Ideal)) (b : Fin 8) (i j : Fin 2048) (z : Fin 1) :
    val_main_v32 (F := Ideal) x1 (ix4 b i j z) = Cert.GraphAttn.wrap (x1 (ix2 b i)) := by
  rw [val_main_v32_apply, val_main_v30_apply, val_main_v24_apply, val_main_v21_apply, val_main_v23_apply,
    val_main_v18_apply, val_main_v20_apply, val_main_v22_apply, val_main_c_3_apply, val_main_c_4_apply]
  have e : idx_main_v18 (idx_main_v30 (idx_main_v32 (ix4 b i j z))) = ix2 b i := by
    funext a; match a with | ⟨0, _⟩ => rfl | ⟨1, _⟩ => rfl
  rw [e]; rfl

theorem v33_at (x1 : (⟨S8x2048, .i32⟩ : BufTy).Contents (Elt Ideal)) (b : Fin 8) (i j : Fin 2048) (z : Fin 1) :
    val_main_v33 (F := Ideal) x1 (ix4 b i j z) = Cert.GraphAttn.wrap (x1 (ix2 b j)) := by
  rw [val_main_v33_apply, val_main_v31_apply, val_main_v29_apply, val_main_v26_apply, val_main_v28_apply,
    val_main_v19_apply, val_main_v25_apply, val_main_v27_apply, val_main_c_5_apply, val_main_c_6_apply]
  have e : idx_main_v19 (idx_main_v31 (idx_main_v33 (ix4 b i j z))) = ix2 b j := by
    funext a; match a with | ⟨0, _⟩ => rfl | ⟨1, _⟩ => rfl
  rw [e]; rfl

/-! ## The start indices: the two columns joined on the last axis -/

/-- Two one-wide arrays joined on axis 3: position 0 reads the first … -/
theorem concat_at0 (u v : IVec S8x2048x2048x1 32) (b : Fin 8) (i j : Fin 2048) :
    concatenate S8x2048x2048x2 3 [⟨S8x2048x2048x1, u⟩, ⟨S8x2048x2048x1, v⟩]
        concatenates_S8x2048x2048x1_S8x2048x2048x1_S8x2048x2048x2_d3 (ix4 b i j (0 : Fin 2))
      = u (ix4 b i j (0 : Fin 1)) :=
  concatenate_pair_apply_left (3 : Fin S8x2048x2048x2.rank) u v _ (ix4 b i j (0 : Fin 2)) rfl (ix4 b i j (0 : Fin 1))
    (fun c => match c with | ⟨0, _⟩ => rfl | ⟨1, _⟩ => rfl | ⟨2, _⟩ => rfl | ⟨3, _⟩ => rfl)

/-- … and position 1 the second. -/
theorem concat_at1 (u v : IVec S8x2048x2048x1 32) (b : Fin 8) (i j : Fin 2048) :
    concatenate S8x2048x2048x2 3 [⟨S8x2048x2048x1, u⟩, ⟨S8x2048x2048x1, v⟩]
        concatenates_S8x2048x2048x1_S8x2048x2048x1_S8x2048x2048x2_d3 (ix4 b i j (1 : Fin 2))
      = v (ix4 b i j (0 : Fin 1)) :=
  concatenate_pair_apply_right (3 : Fin S8x2048x2048x2.rank) u v _ (ix4 b i j (1 : Fin 2)) rfl rfl (ix4 b i j (0 : Fin 1))
    (fun c hc => match c, hc with
      | ⟨0, _⟩, _ => rfl | ⟨1, _⟩, _ => rfl | ⟨2, _⟩, _ => rfl | ⟨3, _⟩, hc => absurd rfl hc)
    rfl

/-! ## The gather of a table at two start indices -/

/-- The operand index the gather reads at (b, i, j) has, on each table axis, that axis's start index read signed and
    clamped into the table: no batching axis and no offset axis contribute. -/
theorem gather2_coord0 (idx : IVec S8x2048x2048x2 32) (b : Fin 8) (i j : Fin 2048) :
    (GatherDims.operandIdx gather_S4000x4000_S8x2048x2048x2_S8x2048x2048_n_01_n_n_01_3_11 (ix3 b i j) idx (0 : Fin 2)).val
      = (Cert.GraphAttn.clamp (idx (ix4 b i j (0 : Fin 2)))).val := by
  show GatherDims.start gather_S4000x4000_S8x2048x2048x2_S8x2048x2048_n_01_n_n_01_3_11 (ix3 b i j) idx (0 : Fin 2)
      + GatherDims.batchCoord gather_S4000x4000_S8x2048x2048x2_S8x2048x2048_n_01_n_n_01_3_11 (ix3 b i j) (0 : Fin 2)
      + GatherDims.offCoord gather_S4000x4000_S8x2048x2048x2_S8x2048x2048_n_01_n_n_01_3_11 (ix3 b i j) (0 : Fin 2) = _
  rw [GatherDims.batchCoord_eq_zero _ _ _ List.not_mem_nil,
    GatherDims.offCoord_eq_zero _ _ _ (fun h => ((GatherDims.mem_sKept _ _).mp h).1
      (show (0 : Fin 2) ∈ gather_S4000x4000_S8x2048x2048x2_S8x2048x2048_n_01_n_n_01_3_11.collapsedSliceDims by decide))]
  simp only [Nat.add_zero]
  unfold GatherDims.start
  rw [dif_pos (show (0 : Fin 2) ∈ gather_S4000x4000_S8x2048x2048x2_S8x2048x2048_n_01_n_n_01_3_11.startIndexMap by decide)]
  have hsi : GatherDims.siIdx gather_S4000x4000_S8x2048x2048x2_S8x2048x2048_n_01_n_n_01_3_11 (ix3 b i j)
      ⟨List.idxOf (0 : Fin 2) gather_S4000x4000_S8x2048x2048x2_S8x2048x2048_n_01_n_n_01_3_11.startIndexMap,
        List.idxOf_lt_length_iff.2 (show (0 : Fin 2) ∈ gather_S4000x4000_S8x2048x2048x2_S8x2048x2048_n_01_n_n_01_3_11.startIndexMap by decide)⟩ = ix4 b i j (0 : Fin 2) := by
    funext c; refine Fin.ext ?_
    match c with
    | ⟨0, _⟩ => rfl
    | ⟨1, _⟩ => rfl
    | ⟨2, _⟩ => rfl
    | ⟨3, _⟩ => rfl
  rw [hsi]
  rfl

theorem gather2_coord1 (idx : IVec S8x2048x2048x2 32) (b : Fin 8) (i j : Fin 2048) :
    (GatherDims.operandIdx gather_S4000x4000_S8x2048x2048x2_S8x2048x2048_n_01_n_n_01_3_11 (ix3 b i j) idx (1 : Fin 2)).val
      = (Cert.GraphAttn.clamp (idx (ix4 b i j (1 : Fin 2)))).val := by
  show GatherDims.start gather_S4000x4000_S8x2048x2048x2_S8x2048x2048_n_01_n_n_01_3_11 (ix3 b i j) idx (1 : Fin 2)
      + GatherDims.batchCoord gather_S4000x4000_S8x2048x2048x2_S8x2048x2048_n_01_n_n_01_3_11 (ix3 b i j) (1 : Fin 2)
      + GatherDims.offCoord gather_S4000x4000_S8x2048x2048x2_S8x2048x2048_n_01_n_n_01_3_11 (ix3 b i j) (1 : Fin 2) = _
  rw [GatherDims.batchCoord_eq_zero _ _ _ List.not_mem_nil,
    GatherDims.offCoord_eq_zero _ _ _ (fun h => ((GatherDims.mem_sKept _ _).mp h).1
      (show (1 : Fin 2) ∈ gather_S4000x4000_S8x2048x2048x2_S8x2048x2048_n_01_n_n_01_3_11.collapsedSliceDims by decide))]
  simp only [Nat.add_zero]
  unfold GatherDims.start
  rw [dif_pos (show (1 : Fin 2) ∈ gather_S4000x4000_S8x2048x2048x2_S8x2048x2048_n_01_n_n_01_3_11.startIndexMap by decide)]
  have hsi : GatherDims.siIdx gather_S4000x4000_S8x2048x2048x2_S8x2048x2048_n_01_n_n_01_3_11 (ix3 b i j)
      ⟨List.idxOf (1 : Fin 2) gather_S4000x4000_S8x2048x2048x2_S8x2048x2048_n_01_n_n_01_3_11.startIndexMap,
        List.idxOf_lt_length_iff.2 (show (1 : Fin 2) ∈ gather_S4000x4000_S8x2048x2048x2_S8x2048x2048_n_01_n_n_01_3_11.startIndexMap by decide)⟩ = ix4 b i j (1 : Fin 2) := by
    funext c; refine Fin.ext ?_
    match c with
    | ⟨0, _⟩ => rfl
    | ⟨1, _⟩ => rfl
    | ⟨2, _⟩ => rfl
    | ⟨3, _⟩ => rfl
  rw [hsi]
  rfl

/-- The gather of a 4000 × 4000 table at (b, i, j): the table at row `idx[b,i,j,0]` and column `idx[b,i,j,1]`, each
    read signed and clamped into the table. -/
theorem gather2_apply {α : Type} (x : S4000x4000.Idx → α) (idx : IVec S8x2048x2048x2 32) (b : Fin 8) (i j : Fin 2048) :
    Host.gather gather_S4000x4000_S8x2048x2048x2_S8x2048x2048_n_01_n_n_01_3_11 x idx (ix3 b i j)
      = x (ix2 (Cert.GraphAttn.clamp (idx (ix4 b i j (0 : Fin 2)))) (Cert.GraphAttn.clamp (idx (ix4 b i j (1 : Fin 2))))) := by
  unfold Host.gather
  congr 1
  funext a
  refine Fin.ext ?_
  match a with
  | ⟨0, _⟩ => exact gather2_coord0 idx b i j
  | ⟨1, _⟩ => exact gather2_coord1 idx b i j

/-! ## The diagonal mask -/

/-- The mask bit at (i, j) is set exactly on the diagonal: both coordinates are below 2048, so their 32-bit words are
    equal only if they are. -/
theorem diag_bit (i j : Fin 2048) :
    val_main_v41 (F := Ideal) (ix2 i j) = if i = j then 1#1 else 0#1 := by
  rw [val_main_v41_apply, val_main_v40_apply, val_main_v37_apply, val_main_v38_apply, val_main_v39_apply,
    val_main_c_7_apply]
  show IntOp.cmpi .eq (IntOp.addi (BitVec.ofNat 32 i.val) 0#32) (BitVec.ofNat 32 j.val) = _
  simp only [IntOp.cmpi, IntOp.addi, BitVec.add_zero]
  by_cases h : i = j
  · subst h; rw [if_pos rfl]; simp
  · rw [if_neg h]
    have hne : BitVec.ofNat 32 i.val ≠ BitVec.ofNat 32 j.val := by
      intro e
      have e' := congrArg BitVec.toNat e
      simp only [BitVec.toNat_ofNat] at e'
      have hi := i.isLt; have hj := j.isLt
      rw [Nat.mod_eq_of_lt (by omega), Nat.mod_eq_of_lt (by omega)] at e'
      exact h (Fin.ext e')
    have hb : (BitVec.ofNat 32 i.val == BitVec.ofNat 32 j.val) = false := beq_eq_false_iff_ne.mpr hne
    rw [hb]; rfl

/-- A select on the mask bit is the `if` on the diagonal. -/
theorem select_diag {α : Type} (i j : Fin 2048) (A B : α) :
    Scalar.select (val_main_v41 (F := Ideal) (ix2 i j)) A B = if i = j then A else B := by
  rw [diag_bit]
  by_cases h : i = j
  · rw [if_pos h, if_pos h]; exact select_one A B
  · rw [if_neg h, if_neg h]; exact select_zero A B

/-! ## The edge values and scores -/

/-- The first gather at (b, i, j) is the first table's entry of the edge. -/
theorem v17_at (x1 : (⟨S8x2048, .i32⟩ : BufTy).Contents (Elt Ideal)) (x2 : (⟨S4000x4000, .f32⟩ : BufTy).Contents (Elt Ideal))
    (b : Fin 8) (i j : Fin 2048) :
    val_main_v17 (F := Ideal) x1 x2 (ix3 b i j) = Cert.GraphAttn.edge x1 x2 b i j := by
  unfold val_main_v17
  rw [gather2_apply]
  unfold val_main_v16
  rw [concat_at0, concat_at1, v14_at, v15_at]
  rfl

/-- The second gather at (b, i, j) is the second table's entry of the edge. -/
theorem v35_at (x1 : (⟨S8x2048, .i32⟩ : BufTy).Contents (Elt Ideal)) (x3 : (⟨S4000x4000, .f32⟩ : BufTy).Contents (Elt Ideal))
    (b : Fin 8) (i j : Fin 2048) :
    val_main_v35 (F := Ideal) x1 x3 (ix3 b i j) = Cert.GraphAttn.edge x1 x3 b i j := by
  unfold val_main_v35
  rw [gather2_apply]
  unfold val_main_v34
  rw [concat_at0, concat_at1, v32_at, v33_at]
  rfl

/-- The masked first gather is the edge's value. -/
theorem v42_at (x1 : (⟨S8x2048, .i32⟩ : BufTy).Contents (Elt Ideal)) (x2 : (⟨S4000x4000, .f32⟩ : BufTy).Contents (Elt Ideal))
    (b : Fin 8) (i j : Fin 2048) :
    val_main_v42 (F := Ideal) x1 x2 (ix3 b i j) = Cert.GraphAttn.value x1 x2 b i j := by
  rw [val_main_v42_apply, val_main_call0_v0_apply, val_main_call0_v1_apply, val_main_cst_apply, v17_at]
  have e : idx_main_call0_v0 (ix3 b i j) = ix2 i j := by
    funext a; match a with | ⟨0, _⟩ => rfl | ⟨1, _⟩ => rfl
  rw [e, select_diag]
  rfl

/-- The masked absolute value of the second gather is the edge's score. -/
theorem v43_at (x1 : (⟨S8x2048, .i32⟩ : BufTy).Contents (Elt Ideal)) (x3 : (⟨S4000x4000, .f32⟩ : BufTy).Contents (Elt Ideal))
    (b : Fin 8) (i j : Fin 2048) :
    val_main_v43 (F := Ideal) x1 x3 (ix3 b i j) = Cert.GraphAttn.score x1 x3 b i j := by
  rw [val_main_v43_apply, val_main_call1_v0_apply, val_main_call1_v1_apply, val_main_cst_8_apply, val_main_v36_apply,
    v35_at]
  have e : idx_main_call1_v0 (ix3 b i j) = ix2 i j := by
    funext a; match a with | ⟨0, _⟩ => rfl | ⟨1, _⟩ => rfl
  rw [e, select_diag]
  rfl

/-! ## The row maximum -/

/-- −∞ is the unit of the maximum. -/
theorem neg_inf_max (y : EReal) : max (Ideal.ofBits .f32 0xFF800000#32) y = y := by
  simp [Ideal.ofBits, Ideal.ieee]

/-- The reduced index (b, i) with `k` put back on the dropped last axis is (b, i, k). -/
theorem lift_ix3 (h : S8x2048x2048.Reduces [2] S8x2048) (b : Fin 8) (i : Fin 2048) (k : Fin (S8x2048x2048.size 2)) :
    h.lift (ix2 b i) k = ix3 b i (⟨k.val, k.isLt⟩ : Fin 2048) := by
  funext c; apply Fin.ext
  match c with
  | ⟨0, _⟩ => rfl
  | ⟨1, _⟩ => rfl
  | ⟨2, _⟩ => rfl

/-- The reduce with a maximum body over the last axis is the row's largest score. -/
theorem v44_at (x1 : (⟨S8x2048, .i32⟩ : BufTy).Contents (Elt Ideal)) (x3 : (⟨S4000x4000, .f32⟩ : BufTy).Contents (Elt Ideal))
    (b : Fin 8) (i : Fin 2048) :
    val_main_v44 (F := Ideal) x1 x3 (ix2 b i) = Cert.GraphAttn.rowMax x1 x3 b i := by
  have h : S8x2048x2048.Reduces [2] S8x2048 := by decide
  unfold val_main_v44
  rw [Host.reduce_eq_fold_single FloatOps.maximumf _ _ reducesTo_S8x2048x2048_S8x2048_d2 h h_S_]
  have hf : (val_main_v43 (F := Ideal) x1 x3 ∘ h.lift (ix2 b i)) = fun k : Fin 2048 => Cert.GraphAttn.score x1 x3 b i k :=
    funext fun k => by
      show val_main_v43 (F := Ideal) x1 x3 (h.lift (ix2 b i) k) = _
      rw [lift_ix3 h b i k, v43_at]
      rfl
  rw [hf]
  rfl

/-- The maximum the softmax subtracts, broadcast along the row. -/
theorem v48_at (x1 : (⟨S8x2048, .i32⟩ : BufTy).Contents (Elt Ideal)) (x3 : (⟨S4000x4000, .f32⟩ : BufTy).Contents (Elt Ideal))
    (b : Fin 8) (i j : Fin 2048) :
    val_main_v48 (F := Ideal) x1 x3 (ix3 b i j) = Cert.GraphAttn.rowMax x1 x3 b i := by
  rw [val_main_v48_apply, val_main_v47_apply, val_main_v46_apply, val_main_v45_apply, val_main_cst_10_apply]
  have e : idx_main_v47 (idx_main_v48 (ix3 b i j)) = ix2 b i := by
    funext a; match a with | ⟨0, _⟩ => rfl | ⟨1, _⟩ => rfl
  rw [e, v44_at]
  exact neg_inf_max _

/-! ## The softmax weights and the weighted values -/

/-- The exponential of the shifted score. -/
theorem v50_at (x1 : (⟨S8x2048, .i32⟩ : BufTy).Contents (Elt Ideal)) (x3 : (⟨S4000x4000, .f32⟩ : BufTy).Contents (Elt Ideal))
    (b : Fin 8) (i j : Fin 2048) :
    val_main_v50 (F := Ideal) x1 x3 (ix3 b i j) = Cert.GraphAttn.expo x1 x3 b i j := by
  rw [val_main_v50_apply, val_main_v49_apply, v43_at, v48_at]
  rfl

/-- The row's sum of exponentials (the sum starts from zero). -/
theorem v51_at (x1 : (⟨S8x2048, .i32⟩ : BufTy).Contents (Elt Ideal)) (x3 : (⟨S4000x4000, .f32⟩ : BufTy).Contents (Elt Ideal))
    (b : Fin 8) (i : Fin 2048) :
    val_main_v51 (F := Ideal) x1 x3 (ix2 b i) = Cert.GraphAttn.denom x1 x3 b i := by
  rw [val_main_v51_apply, val_main_cst_11_apply]
  show Ideal.ofBits .f32 0x00000000#32 + _ = _
  rw [Ideal.ofBits_zero_f32, zero_add]
  refine Finset.sum_congr rfl fun k _ => ?_
  have e : idx_main_v51 (ix2 b i) k = ix3 b i k := by
    funext a; match a with | ⟨0, _⟩ => rfl | ⟨1, _⟩ => rfl | ⟨2, _⟩ => rfl
  rw [e, v50_at]

/-- The normaliser broadcast along the row. -/
theorem v53_at (x1 : (⟨S8x2048, .i32⟩ : BufTy).Contents (Elt Ideal)) (x3 : (⟨S4000x4000, .f32⟩ : BufTy).Contents (Elt Ideal))
    (b : Fin 8) (i j : Fin 2048) :
    val_main_v53 (F := Ideal) x1 x3 (ix3 b i j) = Cert.GraphAttn.denom x1 x3 b i := by
  rw [val_main_v53_apply, val_main_v52_apply]
  have e : idx_main_v52 (idx_main_v53 (ix3 b i j)) = ix2 b i := by
    funext a; match a with | ⟨0, _⟩ => rfl | ⟨1, _⟩ => rfl
  rw [e, v51_at]

/-- The weighted edge value. -/
theorem v55_at (x1 : (⟨S8x2048, .i32⟩ : BufTy).Contents (Elt Ideal)) (x2 x3 : (⟨S4000x4000, .f32⟩ : BufTy).Contents (Elt Ideal))
    (b : Fin 8) (i j : Fin 2048) :
    val_main_v55 (F := Ideal) x1 x2 x3 (ix3 b i j) = Cert.GraphAttn.weighted x1 x2 x3 b i j := by
  rw [val_main_v55_apply, val_main_v54_apply, v42_at, v50_at, v53_at]
  rfl

/-! ## The result -/

theorem ref_eq_out (x0 : (⟨S8x2048x128, .f32⟩ : BufTy).Contents (Elt Ideal)) (x1 : (⟨S8x2048, .i32⟩ : BufTy).Contents (Elt Ideal))
    (x2 x3 : (⟨S4000x4000, .f32⟩ : BufTy).Contents (Elt Ideal)) :
    val_main_v56 (F := Ideal) x0 x1 x2 x3 = Cert.GraphAttn.outArr x0 x1 x2 x3 := by
  refine funext fun (y : S8x2048x128.Idx) => ?_
  obtain ⟨b, i, d, rfl⟩ : ∃ (b : Fin 8) (i : Fin 2048) (d : Fin 128), y = ix3 b i d := ⟨y 0, y 1, y 2, eq_ix3 y⟩
  rw [val_main_v56_apply]
  show _ = Cert.GraphAttn.out x0 x1 x2 x3 b i d
  unfold Cert.GraphAttn.out
  refine Finset.sum_congr rfl fun k _ => ?_
  have el : lidx_main_v56 (ix3 b i d) k = ix3 b i k := by
    funext a; match a with | ⟨0, _⟩ => rfl | ⟨1, _⟩ => rfl | ⟨2, _⟩ => rfl
  have er : ridx_main_v56 (ix3 b i d) k = ix3 b k d := by
    funext a; match a with | ⟨0, _⟩ => rfl | ⟨1, _⟩ => rfl | ⟨2, _⟩ => rfl
  rw [el, er, v55_at]

end Cert.ReferenceIdeal.RefValue
end
-- ==== Proof.lean ====
/-
  The kernel gathers from two 4000 × 4000 tables the entries at (id[b,i], id[b,j]) — rows first, then columns, on the
  host — and in one pipelined region zeroes their diagonals, turns each row of absolute entries of the second table into
  softmax weights, multiplies them into the first table's entries and multiplies the resulting 2048 × 2048 matrix of each
  batch by the batch's 2048 × 128 features. The reference does the same with one two-index gather per table and host
  operations. Over the extended reals the two results are the same array (Proof/Spec.lean's `outArr`), entry by entry:
  a block product into a zero accumulator and the host's contraction are the same sum over the contracted axis, a lane
  reduction and the host's reduce are the same maximum and the same sum, and the order of the two gathers does not
  matter. The ids must lie in the tables, 0 ≤ id < 4000, which the precondition states: outside that range the
  kernel's column selection yields a not-a-number where the reference's gather clamps the index.

  The three frames: the two kernel programs' are the pipeline's frame run (Proof/FrameKernel.lean,
  Proof/FrameKernelIdeal.lean); the reference's is its run with the result dropped. The statement's fourth conjunct is
  `True`: it lists no rewrite between the kernel's two readings.
-/
import proofs.«412008_j77910706749811_3_alg».proof.Defs
import proofs.«412008_j77910706749811_3_alg».proof.Proof.Gen.Kernel
import proofs.«412008_j77910706749811_3_alg».proof.Proof.Gen.KernelIdeal
import proofs.«412008_j77910706749811_3_alg».proof.Proof.Gen.ReferenceIdeal
import proofs.«412008_j77910706749811_3_alg».proof.Proof.Gen.Pre_finite_inputs
import proofs.«412008_j77910706749811_3_alg».proof.Proof.Gen.ReferenceIdeal.Run
import proofs.«412008_j77910706749811_3_alg».proof.Proof.Gen.ReferenceIdeal.Read
import proofs.«412008_j77910706749811_3_alg».proof.Proof.FrameKernel
import proofs.«412008_j77910706749811_3_alg».proof.Proof.KernelValue
import proofs.«412008_j77910706749811_3_alg».proof.Proof.KernelHostAt
import proofs.«412008_j77910706749811_3_alg».proof.Proof.PreIds
import proofs.«412008_j77910706749811_3_alg».proof.Proof.RefValue
import Idealize.ShloMosaic.Adequacy
import Idealize.ShloMosaic.Init

noncomputable section

namespace Cert.Proof

open Idealize.ShloMosaic Idealize.SL.Sem

/-- The kernel at the word level runs and leaves its arguments as they were. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- With the ids in the tables, both programs end with the specification's array of their (agreeing) arguments. -/
theorem algebraic : Cert.algebraic_KernelIdeal_ReferenceIdeal := by
  intro m ρ m' ρ' hpre hagree
  -- every id lies in [0, 4000), so the kernel's host selections are the tables' entries
  have hS : ∀ c, Cert.KernelIdeal.KValue.Selected m c := fun c => by
    have hR : Cert.GraphAttn.InRange (Cert.KernelIdeal.KValue.idsOf m c) :=
      Cert.Pre_finite_inputs.Ids.inRange_of_pre _ _ _ _ (hpre c)
    exact ⟨fun b i j => Cert.KernelIdeal.HostVal.take_rows_apply _ _ hR b i j,
      fun b i j => Cert.KernelIdeal.HostVal.take_rows_apply _ _ hR b i j⟩
  refine ⟨fun c => Cert.GraphAttn.outArr (Cert.KernelIdeal.KValue.xOf m c) (Cert.KernelIdeal.KValue.idsOf m c)
    (Cert.KernelIdeal.KValue.mtOf m c) (Cert.KernelIdeal.KValue.wtOf m c), Cert.KernelIdeal.KValue.run m ρ hS, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.RefValue.ref_eq_out,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
